-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S32x16 : Shape := ⟨2, ![32, 16]⟩
abbrev S2 : Shape := ⟨1, ![2]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  main_v18

def fn {F : FTy → Type} [FloatOps F] (main_arg0 : FVec F S2x16x2048x64 .f32) (main_arg1 : FVec F S2x16x2048x64 .f32) (main_arg2 : FVec F S2x16x2048x64 .f32) (main_arg3 : FVec F S32x16 .f32) (main_arg4 : IVec S2 32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_v13 main_v16
-- ==== Kernel.lean ====
abbrev S2x16x2048x64 : Shape := ⟨4, ![2, 16, 2048, 64]⟩
abbrev S32x16 : Shape := ⟨2, ![32, 16]⟩
abbrev S2 : Shape := ⟨1, ![2]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x2048x1 : Shape := ⟨3, ![2048, 2048, 1]⟩
abbrev S2048x2048x16 : Shape := ⟨3, ![2048, 2048, 16]⟩
abbrev S16x2048x2048 : Shape := ⟨3, ![16, 2048, 2048]⟩
abbrev S1x1x512x64 : Shape := ⟨4, ![1, 1, 512, 64]⟩
abbrev S1x1x2048x64 : Shape := ⟨4, ![1, 1, 2048, 64]⟩
abbrev S1x512x2048 : Shape := ⟨3, ![1, 512, 2048]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S1 : Shape := ⟨1, ![1]⟩
abbrev S512 : Shape := ⟨1, ![512]⟩
abbrev S512x1 : Shape := ⟨2, ![512, 1]⟩

abbrev nBuf : Space → Nat
  | .hbm => 60
  | .vmem => 10
  | .smem => 1
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x16, .f32⟩
  | .hbm, ⟨4, _⟩ => ⟨S2x16x2048x64, .bf16⟩
  | .hbm, ⟨5, _⟩ => ⟨S2x16x2048x64, .bf16⟩
  | .hbm, ⟨6, _⟩ => ⟨S2x16x2048x64, .bf16⟩
  | .hbm, ⟨7, _⟩ => ⟨S2048, .i32⟩
  | .hbm, ⟨8, _⟩ => ⟨S2048x1, .i32⟩
  | .hbm, ⟨9, _⟩ => ⟨S2048, .i32⟩
  | .hbm, ⟨10, _⟩ => ⟨S1x2048, .i32⟩
  | .hbm, ⟨11, _⟩ => ⟨S2048x2048, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i1⟩
  | .hbm, ⟨18, _⟩ => ⟨S_, .i32⟩
  | .hbm, ⟨19, _⟩ => ⟨S2048x2048, .i32⟩
  | .hbm, ⟨20, _⟩ => ⟨S2048x2048, .i32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S2048x2048, .i32⟩
  | .hbm, ⟨36, _⟩ => ⟨S_, .i32⟩
  | .hbm, ⟨37, _⟩ => ⟨S2048x2048, .i32⟩
  | .hbm, ⟨38, _⟩ => ⟨S2048x2048, .i32⟩
  | .hbm, ⟨39, _⟩ => ⟨S2048x2048, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S2048x2048, .i32⟩
  | .hbm, ⟨44, _⟩ => ⟨S2048x2048, .i32⟩
  | .hbm, ⟨45, _⟩ => ⟨S_, .i32⟩
  | .hbm, ⟨46, _⟩ => ⟨S2048x2048, .i32⟩
  | .hbm, ⟨47, _⟩ => ⟨S2048x2048, .i32⟩
  | .hbm, ⟨48, _⟩ => ⟨S_, .i32⟩
  | .hbm, ⟨49, _⟩ => ⟨S2048x2048, .i32⟩
  | .hbm, ⟨50, _⟩ => ⟨S2048x2048, .i1⟩
  | .hbm, ⟨51, _⟩ => ⟨S_, .i32⟩
  | .hbm, ⟨52, _⟩ => ⟨S2048x2048, .i32⟩
  | .hbm, ⟨53, _⟩ => ⟨S2048x2048, .i32⟩
  | .hbm, ⟨54, _⟩ => ⟨S2048x2048, .i32⟩
  | .hbm, ⟨55, _⟩ => ⟨S2048x2048x1, .i32⟩
  | .hbm, ⟨56, _⟩ => ⟨S2048x2048x16, .f32⟩
  | .hbm, ⟨57, _⟩ => ⟨S16x2048x2048, .f32⟩
  | .hbm, ⟨58, _⟩ => ⟨S16x2048x2048, .bf16⟩
  | .hbm, ⟨59, _⟩ => ⟨S2x16x2048x64, .f32⟩
  | .local _ .vmem, ⟨0, _⟩ => ⟨S1x1x512x64, .bf16⟩
  | .local _ .vmem, ⟨1, _⟩ => ⟨S1x1x512x64, .bf16⟩
  | .local _ .vmem, ⟨2, _⟩ => ⟨S1x1x2048x64, .bf16⟩
  | .local _ .vmem, ⟨3, _⟩ => ⟨S1x1x2048x64, .bf16⟩
  | .local _ .vmem, ⟨4, _⟩ => ⟨S1x1x2048x64, .bf16⟩
  | .local _ .vmem, ⟨5, _⟩ => ⟨S1x1x2048x64, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x1x512x64, .f32⟩
  | .local _ .vmem, ⟨9, _⟩ => ⟨S1x1x512x64, .f32⟩
  | .local _ .smem, ⟨0, _⟩ => ⟨S2, .i32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_c_6 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 2], ![false, false, false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg2 : BitVec 32 := BitVec.ofNat 32 (i 2).val
  let v14 : Index := Scalar.indexCast arg2
  ![v14.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, arg1.toNat, c0_i32.toNat]

abbrev stage0_0 : Fin 2 → Memref sig .tc .vmem S1x1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  bitsLt_bf16_f32 : FTy.bits .bf16 < FTy.bits .f32
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  transposes_S2048x2048x16_S16x2048x2048_2_0_1 : S2048x2048x16.Transposes [2, 0, 1] S16x2048x2048
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  transposes_S2048x64_p1_0_S64x2048 : S2048x64.Transposes [1, 0] S64x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  numel1_S1 : S1.numel = 1
  iota_S512x2048_d1_w32 : S512x2048.Iotas .tc 32 [1]
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  shapeCasts_S512x64_S1x1x512x64 : S512x64.ShapeCasts S1x1x512x64
  gather_S32x16_S2048x2048x1_S2048x2048x16_2_0_n_n_0_2_116_wf : GatherDims.WF S32x16 S2048x2048x1 S2048x2048x16 [2] [0] [] [0] [] 2 ![1, 16]
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  k0_off1_inb : ∀ i : grid0.Coords, ∀ a, (k0_off1 i) a + S1.size a ≤ S2.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .bf16 = 32 ∨ (Rect.block (s := S2x16x2048x64) S1x1x512x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .bf16 = 32 ∨ (Rect.block (s := S2x16x2048x64) S1x1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .bf16 = 32 ∨ (Rect.block (s := S2x16x2048x64) S1x1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S16x2048x2048.size a
  hwx0_3 : ∀ i : grid0.Coords, EltTy.bits .bf16 = 32 ∨ (Rect.block (s := S16x2048x2048) S1x512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S2x16x2048x64.size a
  hwx0_4 : ∀ i : grid0.Coords, EltTy.bits .f32 = 32 ∨ (Rect.block (s := S2x16x2048x64) S1x1x512x64.size (cc0_transform_4 i) (hinb0_4 i)).WholeWords (EltTy.packing .f32)

variable [Facts₀]

def gather_S32x16_S2048x2048x1_S2048x2048x16_2_0_n_n_0_2_116 : GatherDims S32x16 S2048x2048x1 S2048x2048x16 where
  offsetDims := [2]
  collapsedSliceDims := [0]
  operandBatchingDims := []
  startIndicesBatchingDims := []
  startIndexMap := [0]
  indexVectorDim := 2
  sliceSizes := ![1, 16]
  wf := gather_S32x16_S2048x2048x1_S2048x2048x16_2_0_n_n_0_2_116_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev spec0_0 : Pipeline.WinSpec sig grid0.rank :=
  Pipeline.WinSpec.ofSpec (Memref.whole main_v0) S1x1x512x64.size reads0_0 false false 2 stage0_0 sem0_0 nbuf0_0 hstage0_0

abbrev spec0_1 : Pipeline.WinSpec sig grid0.rank :=
  Pipeline.WinSpec.ofSpec (Memref.whole main_v1) S1x1x2048x64.size reads0_1 false false 2 stage0_1 sem0_1 nbuf0_1 hstage0_1

abbrev spec0_2 : Pipeline.WinSpec sig grid0.rank :=
  Pipeline.WinSpec.ofSpec (Memref.whole main_v2) S1x1x2048x64.size reads0_2 false false 2 stage0_2 sem0_2 nbuf0_2 hstage0_2

abbrev spec0_3 : Pipeline.WinSpec sig grid0.rank :=
  Pipeline.WinSpec.ofSpec (Memref.whole main_v38) S1x512x2048.size reads0_3 false false 2 stage0_3 sem0_3 nbuf0_3 hstage0_3

abbrev spec0_4 : Pipeline.WinSpec sig grid0.rank :=
  Pipeline.WinSpec.ofSpec (Memref.whole main_v39) S1x1x512x64.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | ⟨_ + 5, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S2x16x2048x64 : Shape := ⟨4, ![2, 16, 2048, 64]⟩
abbrev S32x16 : Shape := ⟨2, ![32, 16]⟩
abbrev S2 : Shape := ⟨1, ![2]⟩
abbrev S2x16x2048x2048 : Shape := ⟨4, ![2, 16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S2048x2048x16 : Shape := ⟨3, ![2048, 2048, 16]⟩
abbrev S16x2048x2048 : Shape := ⟨3, ![16, 2048, 2048]⟩
abbrev S1x16x2048x2048 : Shape := ⟨4, ![1, 16, 2048, 2048]⟩
abbrev S1x1x1x2048 : Shape := ⟨4, ![1, 1, 1, 2048]⟩
abbrev S2x1x1x1 : Shape := ⟨4, ![2, 1, 1, 1]⟩
abbrev S2x1x1x2048 : Shape := ⟨4, ![2, 1, 1, 2048]⟩
abbrev S2x16x2048 : Shape := ⟨3, ![2, 16, 2048]⟩
abbrev S2x16x2048x1 : Shape := ⟨4, ![2, 16, 2048, 1]⟩

abbrev nBuf : Space → Nat
  | .hbm => 88
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x16, .f32⟩
  | .hbm, ⟨4, _⟩ => ⟨S2, .i32⟩
  | .hbm, ⟨5, _⟩ => ⟨S2x16x2048x2048, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S2048, .i32⟩
  | .hbm, ⟨10, _⟩ => ⟨S2048x1, .i32⟩
  | .hbm, ⟨11, _⟩ => ⟨S2048, .i32⟩
  | .hbm, ⟨12, _⟩ => ⟨S1x2048, .i32⟩
  | .hbm, ⟨13, _⟩ => ⟨S2048x2048, .i32⟩
  | .hbm, ⟨14, _⟩ => ⟨S2048x2048, .i32⟩
  | .hbm, ⟨15, _⟩ => ⟨S2048x2048, .i32⟩
  | .hbm, ⟨16, _⟩ => ⟨S2048x2048, .i32⟩
  | .hbm, ⟨17, _⟩ => ⟨S_, .i32⟩
  | .hbm, ⟨18, _⟩ => ⟨S2048x2048, .i32⟩
  | .hbm, ⟨19, _⟩ => ⟨S2048x2048, .i1⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S2048x2048, .i32⟩
  | .hbm, ⟨38, _⟩ => ⟨S_, .i32⟩
  | .hbm, ⟨39, _⟩ => ⟨S2048x2048, .i32⟩
  | .hbm, ⟨40, _⟩ => ⟨S2048x2048, .i32⟩
  | .hbm, ⟨41, _⟩ => ⟨S2048x2048, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S2048x2048, .i32⟩
  | .hbm, ⟨46, _⟩ => ⟨S2048x2048, .i32⟩
  | .hbm, ⟨47, _⟩ => ⟨S_, .i32⟩
  | .hbm, ⟨48, _⟩ => ⟨S2048x2048, .i32⟩
  | .hbm, ⟨49, _⟩ => ⟨S2048x2048, .i32⟩
  | .hbm, ⟨50, _⟩ => ⟨S_, .i32⟩
  | .hbm, ⟨51, _⟩ => ⟨S2048x2048, .i32⟩
  | .hbm, ⟨52, _⟩ => ⟨S2048x2048, .i1⟩
  | .hbm, ⟨53, _⟩ => ⟨S_, .i32⟩
  | .hbm, ⟨54, _⟩ => ⟨S2048x2048, .i32⟩
  | .hbm, ⟨55, _⟩ => ⟨S2048x2048, .i32⟩
  | .hbm, ⟨56, _⟩ => ⟨S2048x2048, .i32⟩
  | .hbm, ⟨57, _⟩ => ⟨S2048x2048x1, .i32⟩
  | .hbm, ⟨58, _⟩ => ⟨S2048x2048x16, .f32⟩
  | .hbm, ⟨59, _⟩ => ⟨S16x2048x2048, .f32⟩
  | .hbm, ⟨60, _⟩ => ⟨S1x16x2048x2048, .f32⟩
  | .hbm, ⟨61, _⟩ => ⟨S2x16x2048x2048, .f32⟩
  | .hbm, ⟨62, _⟩ => ⟨S2x16x2048x2048, .f32⟩
  | .hbm, ⟨63, _⟩ => ⟨S2048, .i32⟩
  | .hbm, ⟨64, _⟩ => ⟨S1x1x1x2048, .i32⟩
  | .hbm, ⟨65, _⟩ => ⟨S2x1x1x1, .i32⟩
  | .hbm, ⟨66, _⟩ => ⟨S2x1x1x2048, .i32⟩
  | .hbm, ⟨67, _⟩ => ⟨S2x1x1x2048, .i32⟩
  | .hbm, ⟨68, _⟩ => ⟨S2x1x1x2048, .i1⟩
  | .hbm, ⟨69, _⟩ => ⟨S_, .f32⟩
  | .hbm, ⟨70, _⟩ => ⟨S2x16x2048x2048, .i1⟩
  | .hbm, ⟨71, _⟩ => ⟨S2x16x2048x2048, .f32⟩
  | .hbm, ⟨72, _⟩ => ⟨S2x16x2048x2048, .f32⟩
  | .hbm, ⟨73, _⟩ => ⟨S_, .f32⟩
  | .hbm, ⟨74, _⟩ => ⟨S2x16x2048, .f32⟩
  | .hbm, ⟨75, _⟩ => ⟨S_, .f32⟩
  | .hbm, ⟨76, _⟩ => ⟨S2x16x2048, .f32⟩
  | .hbm, ⟨77, _⟩ => ⟨S2x16x2048, .f32⟩
  | .hbm, ⟨78, _⟩ => ⟨S2x16x2048x1, .f32⟩
  | .hbm, ⟨79, _⟩ => ⟨S2x16x2048x2048, .f32⟩
  | .hbm, ⟨80, _⟩ => ⟨S2x16x2048x2048, .f32⟩
  | .hbm, ⟨81, _⟩ => ⟨S2x16x2048x2048, .f32⟩
  | .hbm, ⟨82, _⟩ => ⟨S_, .f32⟩
  | .hbm, ⟨83, _⟩ => ⟨S2x16x2048, .f32⟩
  | .hbm, ⟨84, _⟩ => ⟨S2x16x2048x1, .f32⟩
  | .hbm, ⟨85, _⟩ => ⟨S2x16x2048x2048, .f32⟩
  | .hbm, ⟨86, _⟩ => ⟨S2x16x2048x2048, .f32⟩
  | .hbm, ⟨87, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_c_7 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v29 : Ref sig .tc := ⟨.hbm, 49, rfl⟩
abbrev main_c_8 : Ref sig .tc := ⟨.hbm, 50, rfl⟩
abbrev main_v30 : Ref sig .tc := ⟨.hbm, 51, rfl⟩
abbrev main_v31 : Ref sig .tc := ⟨.hbm, 52, rfl⟩
abbrev main_c_9 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_call2_v0 : Ref sig .tc := ⟨.hbm, 70, rfl⟩
abbrev main_call2_v1 : Ref sig .tc := ⟨.hbm, 71, rfl⟩
abbrev main_v47 : Ref sig .tc := ⟨.hbm, 72, rfl⟩
abbrev main_cst_11 : Ref sig .tc := ⟨.hbm, 73, rfl⟩
abbrev main_v48 : Ref sig .tc := ⟨.hbm, 74, rfl⟩
abbrev main_cst_12 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_13 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  transposes_S2048x2048x16_S16x2048x2048_2_0_1 : S2048x2048x16.Transposes [2, 0, 1] S16x2048x2048
  bcast_S16x2048x2048_S1x16x2048x2048_1_2_3 : S16x2048x2048.BroadcastsInDim S1x16x2048x2048 (![1, 2, 3] : Fin 3 → Fin S1x16x2048x2048.rank)
  bcast_S1x16x2048x2048_S2x16x2048x2048_0_1_2_3 : S1x16x2048x2048.BroadcastsInDim S2x16x2048x2048 (![0, 1, 2, 3] : Fin 4 → Fin S2x16x2048x2048.rank)
  bcast_S2048_S1x1x1x2048_3 : S2048.BroadcastsInDim S1x1x1x2048 (![3] : Fin 1 → Fin S1x1x1x2048.rank)
  bcast_S2_S2x1x1x1_0 : S2.BroadcastsInDim S2x1x1x1 (![0] : Fin 1 → Fin S2x1x1x1.rank)
  bcast_S1x1x1x2048_S2x1x1x2048_0_1_2_3 : S1x1x1x2048.BroadcastsInDim S2x1x1x2048 (![0, 1, 2, 3] : Fin 4 → Fin S2x1x1x2048.rank)
  bcast_S2x1x1x1_S2x1x1x2048_0_1_2_3 : S2x1x1x1.BroadcastsInDim S2x1x1x2048 (![0, 1, 2, 3] : Fin 4 → Fin S2x1x1x2048.rank)
  bcast_S2x1x1x2048_S2x16x2048x2048_0_1_2_3 : S2x1x1x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  gather_S32x16_S2048x2048x1_S2048x2048x16_2_0_n_n_0_2_116_wf : GatherDims.WF S32x16 S2048x2048x1 S2048x2048x16 [2] [0] [] [0] [] 2 ![1, 16]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def gather_S32x16_S2048x2048x1_S2048x2048x16_2_0_n_n_0_2_116 : GatherDims S32x16 S2048x2048x1 S2048x2048x16 where
  offsetDims := [2]
  collapsedSliceDims := [0]
  operandBatchingDims := []
  startIndicesBatchingDims := []
  startIndexMap := [0]
  indexVectorDim := 2
  sliceSizes := ![1, 16]
  wf := gather_S32x16_S2048x2048x1_S2048x2048x16_2_0_n_n_0_2_116_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  Scaled dot-product attention with an additive position bias and a key-length mask, one output element at a
  time, over the extended reals.

  For a query row (b, h, s) the logit against key t is (sum over e of q[b,h,s,e] * k[b,h,t,e]) * c + bias[h,s,t]
  where the key position is below the length word of batch b (a signed comparison of 32-bit words) and the
  stand-in -1e9 elsewhere; the row's weights are exp (logit t - M) with M the row's maximum; the output
  element (b, h, s, d) is the weighted sum of v[b,h,t,d] normalised by the sum Z of the weights.

  Two arrangements of that last step are stated: the quotient of the weighted sum by Z (rowK), and the sum of
  the values weighted by exp (.) / Z (rowR). They agree when every logit and every value is a real number:
  then each weight is a positive real, Z is a positive real, and division by a nonzero real distributes over a
  finite sum. The scale c is spelt once as the product with 1/8 and once as the quotient by 8: on every
  extended real these are one function.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The shape of q, k, v and the result. -/
abbrev SQ : Shape := ⟨4, ![2, 16, 2048, 64]⟩
/-- The shape of the bias: head, query position, key position. -/
abbrev SB : Shape := ⟨3, ![16, 2048, 2048]⟩
/-- The shape of the per-batch key lengths. -/
abbrev SL : Shape := ⟨1, ![2]⟩

/-- "Is a real number": neither infinity. -/
def IsReal (x : EReal) : Prop := ∃ r : ℝ, x = (r : EReal)

/-! ## One row -/

/-- A row's maximum, taken from minus infinity. -/
def rowMax (s : Fin 2048 → EReal) : EReal := (Finset.univ : Finset (Fin 2048)).fold max (⊥ : EReal) s

/-- The weight of key t: exp (s t - max). -/
def wgt (s : Fin 2048 → EReal) (t : Fin 2048) : EReal := Ideal.exp (s t - rowMax s)

/-- The normaliser: the sum of the weights. -/
def den (s : Fin 2048 → EReal) : EReal := ∑ t : Fin 2048, wgt s t

/-- The weighted sum of the values divided by the normaliser. -/
def rowK (s v : Fin 2048 → EReal) : EReal := Ideal.div (∑ t : Fin 2048, wgt s t * v t) (den s)

/-- The sum of the values weighted by the normalised weights. -/
def rowR (s v : Fin 2048 → EReal) : EReal := ∑ t : Fin 2048, Ideal.div (wgt s t) (den s) * v t

/-! ## The logits -/

/-- The finite stand-in for minus infinity both programs fill masked positions with. -/
def negBig : EReal := Ideal.ofBits .f32 0xCE6E6B28#32

/-- Key t is kept when its position, as a 32-bit word, is below the length word (signed). -/
def masked (len : BitVec 32) (t : Fin 2048) (x : EReal) : EReal :=
  Scalar.select (IntOp.cmpi .slt (BitVec.ofNat 32 t.val) len) x negBig

/-- The dot product of query row (b, h, s) with key row (b, h, t). -/
def qk (q k : SQ.Idx → EReal) (b : Fin 2) (h : Fin 16) (s t : Fin 2048) : EReal :=
  ∑ e : Fin 64, q (ix4 b h s e) * k (ix4 b h t e)

/-- The logits, the scale spelt as the product with the word of 0.125. -/
def logitK (q k : SQ.Idx → EReal) (bias : SB.Idx → EReal) (len : SL.Idx → BitVec 32)
    (b : Fin 2) (h : Fin 16) (s t : Fin 2048) : EReal :=
  masked (len (ix1 b)) t (qk q k b h s t * Ideal.ofBits .f32 0x3E000000#32 + bias (ix3 h s t))

/-- The logits, the scale spelt as the quotient by the word of 8.0. -/
def logitR (q k : SQ.Idx → EReal) (bias : SB.Idx → EReal) (len : SL.Idx → BitVec 32)
    (b : Fin 2) (h : Fin 16) (s t : Fin 2048) : EReal :=
  masked (len (ix1 b)) t (Ideal.div (qk q k b h s t) (Ideal.ofBits .f32 0x41000000#32) + bias (ix3 h s t))

/-! ## The result -/

/-- Output element (b, h, s, d), in the quotient-last arrangement. -/
def outAt (q k v : SQ.Idx → EReal) (bias : SB.Idx → EReal) (len : SL.Idx → BitVec 32)
    (b : Fin 2) (h : Fin 16) (s : Fin 2048) (d : Fin 64) : EReal :=
  rowK (logitK q k bias len b h s) (fun t => v (ix4 b h t d))

/-- The whole result array. -/
def outArr (q k v : SQ.Idx → EReal) (bias : SB.Idx → EReal) (len : SL.Idx → BitVec 32) : SQ.Idx → EReal :=
  fun i => outAt q k v bias len (i 0) (i 1) (i 2) (i 3)

theorem outArr_ix4 (q k v : SQ.Idx → EReal) (bias : SB.Idx → EReal) (len : SL.Idx → BitVec 32)
    (b : Fin 2) (h : Fin 16) (s : Fin 2048) (d : Fin 64) :
    outArr q k v bias len (ix4 b h s d) = outAt q k v bias len b h s d := rfl

end Cert.Attn

end
-- ==== Proof.RefValue.lean ====
/-
  The reference program's result read at one index (b, h, s, d): the sum over the keys t of the normalised
  weight of key t times v[b,h,t,d], where the weights are exp (logit t - M) with M the row's maximum taken from
  minus infinity, the normaliser is the sum of the weights, and the logits are the quotient-spelt ones of the
  specification over the reference's own bias array.
-/
import proofs.«419745_j47141561041102_2_alg».proof.Proof.RefRead
import proofs.«419745_j47141561041102_2_alg».proof.Proof.Spec
import Idealize.ShloMosaic.PureOps.Reduce
import Idealize.ShloMosaic.PureOps.Ideal.Laws
import Idealize.ShloMosaic.Lib.ValueIdx

noncomputable section

namespace Cert.ReferenceIdeal.RefValue

open Idealize.ShloMosaic Idealize.ShloMosaic.ValueIdx Cert.ReferenceIdeal Cert.ReferenceIdeal.Gen
  Cert.ReferenceIdeal.ReadP Cert.Attn

/-! ## The composed index maps at explicit coordinates -/

/-- The contraction of q with k at (b, h, s, t), term e, reads q at (b, h, s, e) ... -/
theorem lidx_v0 (b : Fin 2) (h : Fin 16) (s t : Fin 2048) (e : Fin 64) :
    lidx_main_v0 (ix4 b h s t) e = ix4 b h s e :=
  funext fun a => Fin.ext (by match a with | ⟨0, _⟩ => rfl | ⟨1, _⟩ => rfl | ⟨2, _⟩ => rfl | ⟨3, _⟩ => rfl)

/-- ... and k at (b, h, t, e). -/
theorem ridx_v0 (b : Fin 2) (h : Fin 16) (s t : Fin 2048) (e : Fin 64) :
    ridx_main_v0 (ix4 b h s t) e = ix4 b h t e :=
  funext fun a => Fin.ext (by match a with | ⟨0, _⟩ => rfl | ⟨1, _⟩ => rfl | ⟨2, _⟩ => rfl | ⟨3, _⟩ => rfl)

/-- The bias broadcast over the batch reads the bias at (h, s, t). -/
theorem idx_bias (b : Fin 2) (h : Fin 16) (s t : Fin 2048) :
    idx_main_v38 (idx_main_v39 (ix4 b h s t)) = ix3 h s t :=
  funext fun a => Fin.ext (by match a with | ⟨0, _⟩ => rfl | ⟨1, _⟩ => rfl | ⟨2, _⟩ => rfl)

/-- The length broadcast over heads, queries and keys reads the length of batch b. -/
theorem idx_len (b : Fin 2) (h : Fin 16) (s t : Fin 2048) :
    idx_main_v43 (idx_main_v45 (idx_main_call2_v0 (ix4 b h s t))) = ix1 b :=
  funext fun a => Fin.ext (by match a with | ⟨0, _⟩ => rfl)

/-- The row statistics broadcast along the keys read the statistic of row (b, h, s). -/
theorem idx_row52 (b : Fin 2) (h : Fin 16) (s t : Fin 2048) :
    idx_main_v51 (idx_main_v52 (ix4 b h s t)) = ix3 b h s :=
  funext fun a => Fin.ext (by match a with | ⟨0, _⟩ => rfl | ⟨1, _⟩ => rfl | ⟨2, _⟩ => rfl)

theorem idx_row57 (b : Fin 2) (h : Fin 16) (s t : Fin 2048) :
    idx_main_v56 (idx_main_v57 (ix4 b h s t)) = ix3 b h s :=
  funext fun a => Fin.ext (by match a with | ⟨0, _⟩ => rfl | ⟨1, _⟩ => rfl | ⟨2, _⟩ => rfl)

/-- The sum along the keys of row (b, h, s) runs over (b, h, s, t). -/
theorem idx_sum55 (b : Fin 2) (h : Fin 16) (s t : Fin 2048) :
    idx_main_v55 (ix3 b h s) t = ix4 b h s t :=
  funext fun a => Fin.ext (by match a with | ⟨0, _⟩ => rfl | ⟨1, _⟩ => rfl | ⟨2, _⟩ => rfl | ⟨3, _⟩ => rfl)

/-- The last contraction at (b, h, s, d), term t, reads the weights at (b, h, s, t) ... -/
theorem lidx_v59 (b : Fin 2) (h : Fin 16) (s : Fin 2048) (d : Fin 64) (t : Fin 2048) :
    lidx_main_v59 (ix4 b h s d) t = ix4 b h s t :=
  funext fun a => Fin.ext (by match a with | ⟨0, _⟩ => rfl | ⟨1, _⟩ => rfl | ⟨2, _⟩ => rfl | ⟨3, _⟩ => rfl)

/-- ... and v at (b, h, t, d). -/
theorem ridx_v59 (b : Fin 2) (h : Fin 16) (s : Fin 2048) (d : Fin 64) (t : Fin 2048) :
    ridx_main_v59 (ix4 b h s d) t = ix4 b h t d :=
  funext fun a => Fin.ext (by match a with | ⟨0, _⟩ => rfl | ⟨1, _⟩ => rfl | ⟨2, _⟩ => rfl | ⟨3, _⟩ => rfl)

/-- The fact that names the index inserted on the key axis. -/
theorem reduces_keys : S2x16x2048x2048.Reduces [3] S2x16x2048 := by decide

/-- Row (b, h, s) with key t inserted on the last axis is (b, h, s, t). -/
theorem lift_keys (b : Fin 2) (h : Fin 16) (s t : Fin 2048) :
    reduces_keys.lift (ix3 b h s) t = ix4 b h s t :=
  funext fun a => Fin.ext (by match a with | ⟨0, _⟩ => rfl | ⟨1, _⟩ => rfl | ⟨2, _⟩ => rfl | ⟨3, _⟩ => rfl)

/-! ## The stages at explicit coordinates -/

/-- The key-position word at (b, _, _, t) is the word of t. -/
theorem pos_at (b : Fin 2) (h : Fin 16) (s t : Fin 2048) :
    val_main_v44 (F := Ideal) (idx_main_call2_v0 (ix4 b h s t)) = BitVec.ofNat 32 t.val := by
  rw [val_main_v44_apply, val_main_v42_apply, val_main_v41_apply]

/-- The length word at (b, _, _, t) is the length of batch b. -/
theorem len_at (x4 : (⟨S2, .i32⟩ : BufTy).Contents (Elt Ideal)) (b : Fin 2) (h : Fin 16) (s t : Fin 2048) :
    val_main_v45 (F := Ideal) x4 (idx_main_call2_v0 (ix4 b h s t)) = x4 (ix1 b) := by
  rw [val_main_v45_apply, val_main_v43_apply, idx_len]

/-- The scaled dot product at (b, h, s, t). -/
theorem scaled_at (x0 x1 : (⟨S2x16x2048x64, .f32⟩ : BufTy).Contents (Elt Ideal)) (b : Fin 2) (h : Fin 16) (s t : Fin 2048) :
    val_main_v2 (F := Ideal) x0 x1 (ix4 b h s t)
      = Ideal.div (qk x0 x1 b h s t) (Ideal.ofBits .f32 0x41000000#32) := by
  rw [val_main_v2_apply, val_main_v1_apply, val_main_cst_apply, val_main_v0_apply]
  unfold qk
  simp only [lidx_v0, ridx_v0]
  rfl

/-- The logits of the reference at (b, h, s, t) are the quotient-spelt logits over its own bias array. -/
theorem logit_at (x0 x1 : (⟨S2x16x2048x64, .f32⟩ : BufTy).Contents (Elt Ideal))
    (x3 : (⟨S32x16, .f32⟩ : BufTy).Contents (Elt Ideal)) (x4 : (⟨S2, .i32⟩ : BufTy).Contents (Elt Ideal))
    (b : Fin 2) (h : Fin 16) (s t : Fin 2048) :
    val_main_v47 (F := Ideal) x0 x1 x3 x4 (ix4 b h s t)
      = logitR x0 x1 (val_main_v37 (F := Ideal) x3) x4 b h s t := by
  rw [val_main_v47_apply, val_main_call2_v0_apply, val_main_v46_apply, pos_at, len_at,
    val_main_v40_apply, scaled_at, val_main_v39_apply, val_main_v38_apply, idx_bias,
    val_main_call2_v1_apply, val_main_cst_10_apply]
  rfl

/-- The word of minus infinity is the bottom of the extended reals. -/
theorem ofBits_negInf : Ideal.ofBits .f32 0xFF800000#32 = (⊥ : EReal) := by
  simp [Ideal.ofBits, Ideal.ieee]

/-- The maximum of row (b, h, s): the reference folds max over the keys from minus infinity, then takes the
    maximum with minus infinity once more, which changes nothing. -/
theorem max_at (x0 x1 : (⟨S2x16x2048x64, .f32⟩ : BufTy).Contents (Elt Ideal))
    (x3 : (⟨S32x16, .f32⟩ : BufTy).Contents (Elt Ideal)) (x4 : (⟨S2, .i32⟩ : BufTy).Contents (Elt Ideal))
    (b : Fin 2) (h : Fin 16) (s : Fin 2048) :
    val_main_v50 (F := Ideal) x0 x1 x3 x4 (ix3 b h s)
      = rowMax (logitR x0 x1 (val_main_v37 (F := Ideal) x3) x4 b h s) := by
  have hf : (fun t : Fin 2048 => val_main_v47 (F := Ideal) x0 x1 x3 x4 (reduces_keys.lift (ix3 b h s) t))
      = logitR x0 x1 (val_main_v37 (F := Ideal) x3) x4 b h s :=
    funext fun t => by rw [lift_keys, logit_at]
  rw [val_main_v50_apply, val_main_v49_apply, val_main_cst_12_apply]
  unfold val_main_v48
  rw [Host.reduce_eq_fold_single FloatOps.maximumf _ _ reducesTo_S2x16x2048x2048_S2x16x2048_d3 reduces_keys h_S_,
    val_main_cst_11_apply]
  show max (Ideal.ofBits .f32 0xFF800000#32) ((Finset.univ : Finset (Fin 2048)).fold max
      (Ideal.ofBits .f32 0xFF800000#32)
      (fun t : Fin 2048 => val_main_v47 (F := Ideal) x0 x1 x3 x4 (reduces_keys.lift (ix3 b h s) t))) = _
  rw [ofBits_negInf, hf]
  unfold rowMax
  exact max_eq_right bot_le

/-- The weight of key t in row (b, h, s). -/
theorem wgt_at (x0 x1 : (⟨S2x16x2048x64, .f32⟩ : BufTy).Contents (Elt Ideal))
    (x3 : (⟨S32x16, .f32⟩ : BufTy).Contents (Elt Ideal)) (x4 : (⟨S2, .i32⟩ : BufTy).Contents (Elt Ideal))
    (b : Fin 2) (h : Fin 16) (s t : Fin 2048) :
    val_main_v54 (F := Ideal) x0 x1 x3 x4 (ix4 b h s t)
      = wgt (logitR x0 x1 (val_main_v37 (F := Ideal) x3) x4 b h s) t := by
  rw [val_main_v54_apply, val_main_v53_apply, val_main_v52_apply, val_main_v51_apply, idx_row52, max_at, logit_at]
  rfl

/-- The normaliser of row (b, h, s): zero plus the sum of the weights. -/
theorem den_at (x0 x1 : (⟨S2x16x2048x64, .f32⟩ : BufTy).Contents (Elt Ideal))
    (x3 : (⟨S32x16, .f32⟩ : BufTy).Contents (Elt Ideal)) (x4 : (⟨S2, .i32⟩ : BufTy).Contents (Elt Ideal))
    (b : Fin 2) (h : Fin 16) (s : Fin 2048) :
    val_main_v55 (F := Ideal) x0 x1 x3 x4 (ix3 b h s)
      = den (logitR x0 x1 (val_main_v37 (F := Ideal) x3) x4 b h s) := by
  rw [val_main_v55_apply, val_main_cst_13_apply]
  simp only [idx_sum55, wgt_at]
  unfold den
  show Ideal.ofBits .f32 0x00000000#32 + _ = _
  rw [Ideal.ofBits_zero_f32, zero_add]

/-- The normalised weight of key t in row (b, h, s). -/
theorem prob_at (x0 x1 : (⟨S2x16x2048x64, .f32⟩ : BufTy).Contents (Elt Ideal))
    (x3 : (⟨S32x16, .f32⟩ : BufTy).Contents (Elt Ideal)) (x4 : (⟨S2, .i32⟩ : BufTy).Contents (Elt Ideal))
    (b : Fin 2) (h : Fin 16) (s t : Fin 2048) :
    val_main_v58 (F := Ideal) x0 x1 x3 x4 (ix4 b h s t)
      = Ideal.div (wgt (logitR x0 x1 (val_main_v37 (F := Ideal) x3) x4 b h s) t)
          (den (logitR x0 x1 (val_main_v37 (F := Ideal) x3) x4 b h s)) := by
  rw [val_main_v58_apply, val_main_v57_apply, val_main_v56_apply, idx_row57, den_at, wgt_at]
  rfl

/-! ## The result -/

open Idealize.ShloMosaic Idealize.ShloMosaic.ValueIdx Cert.ReferenceIdeal in
/-- The reference's result at (b, h, s, d) is the normalise-first row over the quotient-spelt logits. -/
theorem ref_at (x0 x1 x2 : (⟨S2x16x2048x64, .f32⟩ : BufTy).Contents (Elt Ideal)) (x3 : (⟨S32x16, .f32⟩ : BufTy).Contents (Elt Ideal)) (x4 : (⟨S2, .i32⟩ : BufTy).Contents (Elt Ideal)) (b : Fin 2) (h : Fin 16) (s : Fin 2048) (d : Fin 64) :
    Cert.ReferenceIdeal.ReadP.val_main_v59 (F := Ideal) x0 x1 x2 x3 x4 (ix4 b h s d)
      = Cert.Attn.rowR (Cert.Attn.logitR x0 x1 (Cert.ReferenceIdeal.ReadP.val_main_v37 (F := Ideal) x3) x4 b h s) (fun t => x2 (ix4 b h t d)) := by
  rw [val_main_v59_apply]
  unfold rowR
  refine Finset.sum_congr rfl fun t _ => ?_
  rw [lidx_v59, ridx_v59, prob_at]

end Cert.ReferenceIdeal.RefValue

end
-- ==== Proof.KPiece.lean ====
import proofs.«419745_j47141561041102_2_alg».proof.Proof.Gen.KernelIdeal.Frame
import Idealize.ShloMosaic.Lib.Pipeline.Value
import Idealize.ShloMosaic.Lib.ValueIdx

set_option maxRecDepth 16384

noncomputable section

namespace Cert.KernelIdeal.KPiece

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem hz4 : (![0, 0, 0, 0] : Fin 4 → Nat) = fun _ => 0 := by funext a; match a with | ⟨0, _⟩ => rfl | ⟨1, _⟩ => rfl | ⟨2, _⟩ => rfl | ⟨3, _⟩ => rfl
theorem hz3 : (![0, 0, 0] : Fin 3 → Nat) = fun _ => 0 := by funext a; match a with | ⟨0, _⟩ => rfl | ⟨1, _⟩ => rfl | ⟨2, _⟩ => rfl

/-- The length word the body reads from the table: the table's entry at the point's batch coordinate. -/
theorem word_eq (c : Dev nD) (i : grid0.Coords) (xt0 : TbBuf0 (F := F) c tbM0_0)
    (h1 : ∀ a, k0_off1 i a + (![1] : Fin 1 → Nat) a ≤ S2.size a) (h2 : 0 < (Rect.unit (s := S2) (k0_off1 i) ![1] h1).shape.numel) :
    View.ld (View.read (Elt F) (View.whole main_arg4) xt0) (Rect.unit (k0_off1 i) ![1] h1) (Shape.Idx.first h2)
      = (xt0 : S2.Idx → Elt F .i32) (ValueIdx.ix1 (⟨(i 2).val, (i 2).isLt⟩ : Fin 2)) := by
  rw [View.read_whole]
  show xt0 ((Rect.unit (k0_off1 i) ![1] h1).emb (Shape.Idx.first h2)) = _
  refine congrArg xt0 (funext fun (a : Fin 1) => Fin.ext ?_)
  obtain rfl : a = 0 := Subsingleton.elim _ _
  rw [Rect.emb_apply]
  show k0_off1 i 0 + 1 * 0 = (i 2).val
  rw [k0_off1_eq]
  rfl

/-- What one grid point leaves in the output's staging buffer: the body's arithmetic of the four input blocks
    and the length word of the point's batch. -/
theorem out_piece (c : Dev nD) (i : grid0.Coords) (arg4 : Memref sig .tc .vmem S1x1x512x64 .bf16) (harg4 : arg4.IsWhole) (arg5 : Memref sig .tc .vmem S1x1x2048x64 .bf16) (harg5 : arg5.IsWhole) (arg6 : Memref sig .tc .vmem S1x1x2048x64 .bf16) (harg6 : arg6.IsWhole) (arg7 : Memref sig .tc .vmem S1x512x2048 .bf16) (harg7 : arg7.IsWhole) (arg8 : Memref sig .tc .vmem S1x1x512x64 .f32) (harg8 : arg8.IsWhole)
    (x0 : Vec F S1x1x512x64 .bf16) (x1 : Vec F S1x1x2048x64 .bf16) (x2 : Vec F S1x1x2048x64 .bf16) (x3 : Vec F S1x512x2048 .bf16) (xt0 : TbBuf0 (F := F) c tbM0_0) :
    out0_A_4 c i arg4 harg4 arg5 harg5 arg6 harg6 arg7 harg7 arg8 harg8 x0 x1 x2 x3 xt0
      = k0_pay1 (k0_pay2 x0 x1 x2 x3 ((xt0 : S2.Idx → Elt F .i32) (ValueIdx.ix1 (⟨(i 2).val, (i 2).isLt⟩ : Fin 2)))) := by
  unfold out0_A_4
  rw [View.read_writes_eq_canon _ _ _ (cover0_A_4 c i arg4 harg4 arg5 harg5 arg6 harg6 arg7 harg7 arg8 harg8 x0 x1 x2 x3 xt0)]
  unfold kernelRun0_A
  dsimp only
  sl_unfold_run_names
  rw [View.canon_unit_zero hz4]
  simp only [View.readAt_eq_ld, Memref.IsWhole.read_unread, View.ld_unit_zero (S := S1x1x512x64) hz4, View.ld_unit_zero (S := S1x1x2048x64) hz4, View.ld_unit_zero (S := S1x512x2048) hz3, word_eq]

end Cert.KernelIdeal.KPiece
end
-- ==== Proof.KBody.lean ====
/-
  The kernel body's arithmetic in two stages. The first makes the block of masked logits of 512 query rows
  against all 2048 keys: the query block times the transposed key block, scaled by the word of 0.125, plus the
  bias block, kept where the key position is below the length word and the word of -1e9 elsewhere. The second
  is the softmax-weighted sum: each row's maximum, the exponentials of the differences, their row sums, the
  product of the exponentials with the value block, and the quotient by the row sums.
-/
import proofs.«419745_j47141561041102_2_alg».proof.Proof.Gen.KernelIdeal.Skeleton
import proofs.«419745_j47141561041102_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KBody

open Idealize.ShloMosaic Idealize.ShloMosaic.ValueIdx
open Cert.KernelIdeal Cert.KernelIdeal.Gen

variable {F : FTy → Type} [FloatOps F]

/-- The masked logits of one grid point: 512 query rows against 2048 keys. -/
def logitsV (x0 : Vec F S1x1x512x64 .bf16) (x1 : Vec F S1x1x2048x64 .bf16) (x3 : Vec F S1x512x2048 .bf16) (w : Elt F .i32) : FVec F S512x2048 .f32 :=
  have v1 : FVec F S512x64 .bf16 := shapeCast S512x64 x0 shapeCasts_S1x1x512x64_S512x64
  have v3 : FVec F S2048x64 .bf16 := shapeCast S2048x64 x1 shapeCasts_S1x1x2048x64_S2048x64
  have v6 : FVec F S64x2048 .bf16 := transpose S64x2048 [1, 0] v3 transposes_S2048x64_p1_0_S64x2048
  have cst : FVec F S512x2048 .f32 := constant S512x2048 .f32 0x00000000#32
  have v7 : FVec F S512x2048 .f32 := matmul dot_S512x64_S64x2048_S512x2048_1_0_0_1_n_n none v1 v6 cst
  have cst_11 : F .f32 := Scalar.ofBits .f32 0x3E000000#32
  have v8 : FVec F S512x2048 .f32 := broadcast S512x2048 cst_11
  have v9 : FVec F S512x2048 .f32 := mulf v7 v8
  have v11 : FVec F S512x2048 .bf16 := shapeCast S512x2048 x3 shapeCasts_S1x512x2048_S512x2048
  have v12 : FVec F S512x2048 .f32 := extf .f32 v11 bitsLt_bf16_f32
  have v13 : FVec F S512x2048 .f32 := addf v9 v12
  have v16 : IVec S512x2048 32 := iota .tc S512x2048 32 [1] iota_S512x2048_d1_w32
  have v17 : IVec S512x2048 32 := broadcast S512x2048 w
  have v18 : IVec S512x2048 1 := cmpi .slt v16 v17
  have cst_15 : F .f32 := Scalar.ofBits .f32 0xCE6E6B28#32
  have v19 : FVec F S512x2048 .f32 := broadcast S512x2048 cst_15
  select v18 v13 v19

/-- The softmax-weighted sum of the value block's rows, one output row per logit row. -/
def softmaxV (v20 : FVec F S512x2048 .f32) (v5 : FVec F S2048x64 .bf16) : FVec F S512x64 .f32 :=
  have v21 : FVec F S512 .f32 := multiReduction .maximumf [1] S512 v20 0xFF800000#32 reduces_S512x2048_S512 (.inl rfl) rfl
  have v22 : FVec F S512x1 .f32 := shapeCast S512x1 v21 shapeCasts_S512_S512x1
  have v23 : FVec F S512x2048 .f32 := broadcastTo S512x2048 v22 broadcasts_S512x1_S512x2048
  have v24 : FVec F S512x2048 .f32 := subf v20 v23
  have v25 : FVec F S512x2048 .f32 := exp v24
  have v26 : FVec F S512 .f32 := multiReduction .add [1] S512 v25 0x00000000#32 reduces_S512x2048_S512 (.inl rfl) rfl
  have v27 : FVec F S512x1 .f32 := shapeCast S512x1 v26 shapeCasts_S512_S512x1
  have v28 : FVec F S512x2048 .bf16 := truncf .bf16 v25 bitsLt_bf16_f32
  have cst_18 : FVec F S512x64 .f32 := constant S512x64 .f32 0x00000000#32
  have v29 : FVec F S512x64 .f32 := matmul dot_S512x2048_S2048x64_S512x64_1_0_0_1_n_n none v28 v5 cst_18
  have v30 : FVec F S512x64 .f32 := broadcastTo S512x64 v27 broadcasts_S512x1_S512x64
  divf v29 v30

/-- The body's value is the second stage over the first and the value block. -/
theorem pay2_eq (x0 : Vec F S1x1x512x64 .bf16) (x1 x2 : Vec F S1x1x2048x64 .bf16) (x3 : Vec F S1x512x2048 .bf16) (w : Elt F .i32) :
    k0_pay2 x0 x1 x2 x3 w = softmaxV (logitsV x0 x1 x3 w) (shapeCast S2048x64 x2 shapeCasts_S1x1x2048x64_S2048x64) := rfl

end Cert.KernelIdeal.KBody
end
-- ==== Proof.KHost.lean ====
/-
  What the kernel program's host operations leave in the arrays its windows read, at the ideal instance.

  Before its one kernel call the program runs 55 host operations. Three of them change the format of q, k and v
  from f32 to bf16. The other 52 build the position bias: from two iotas a [2048, 2048] array of bucket indices
  (the relative position, its logarithmic bucketing, two clamps, and negative indices wrapped around), a gather
  of the bias table's rows at those indices, a transposition to (head, query position, key position), and a
  change of format to bf16. At the ideal instance a float of any format is an extended real and a change of
  format is the identity. So the first three arrays are q, k and v themselves, and the fourth is the reference's
  bias: the reference computes it by the same operations on the same literals. That last equality holds for
  every float family, and it is proved there: over an abstract family no operation of the chain has to be
  opened, the two terms being the same operations applied to the same operands.
-/
import proofs.«419745_j47141561041102_2_alg».proof.Proof.Gen.KernelIdeal.Frame
import proofs.«419745_j47141561041102_2_alg».proof.Proof.RefRead
import Idealize.ShloMosaic.Lib.StableHlo.Run

noncomputable section

namespace Cert.KernelIdeal.KHost

open Idealize.ShloMosaic Idealize.ShloMosaic.TcCoe Idealize.SL.Sem Cert.KernelIdeal Cert.KernelIdeal.Gen

variable (m : (ℓ : Loc nD τ sig) → Buf (Elt Ideal) ℓ)

/-- The array the windows read q from is q itself: the one host operation that writes it is the change
    of format from f32 to bf16 of argument 0, and at the ideal instance that is the identity. -/
theorem V_v0 (c : Dev nD) : (V (F := Ideal) m c main_v0 : S2x16x2048x64.Idx → EReal) = m ((c : Thread nD τ).loc main_arg0) := by
  -- what the host operations leave there: the change of format applied to the argument as launched
  have e : (V (F := Ideal) m c main_v0 : S2x16x2048x64.Idx → EReal)
      = (truncf .bf16 (m ((c : Thread nD τ).loc main_arg0) : FVec Ideal S2x16x2048x64 .f32) bitsLt_bf16_f32 : FVec Ideal S2x16x2048x64 .bf16) := by
    dsimp only [V]
    simp only [hostOps0, hostOps0_1, hostOps0_2, hostOps0_3, hostOps0_4, List.flatten_cons, List.flatten_nil, List.append_nil,
    List.cons_append, List.nil_append]
    after_results
  -- entry by entry the change of format returns its operand
  rw [e]
  rfl

/-- The array the windows read k from is k itself: the one host operation that writes it is the change
    of format from f32 to bf16 of argument 1, and at the ideal instance that is the identity. -/
theorem V_v1 (c : Dev nD) : (V (F := Ideal) m c main_v1 : S2x16x2048x64.Idx → EReal) = m ((c : Thread nD τ).loc main_arg1) := by
  -- what the host operations leave there: the change of format applied to the argument as launched
  have e : (V (F := Ideal) m c main_v1 : S2x16x2048x64.Idx → EReal)
      = (truncf .bf16 (m ((c : Thread nD τ).loc main_arg1) : FVec Ideal S2x16x2048x64 .f32) bitsLt_bf16_f32 : FVec Ideal S2x16x2048x64 .bf16) := by
    dsimp only [V]
    simp only [hostOps0, hostOps0_1, hostOps0_2, hostOps0_3, hostOps0_4, List.flatten_cons, List.flatten_nil, List.append_nil,
    List.cons_append, List.nil_append]
    after_results
  -- entry by entry the change of format returns its operand
  rw [e]
  rfl

/-- The array the windows read v from is v itself: the one host operation that writes it is the change
    of format from f32 to bf16 of argument 2, and at the ideal instance that is the identity. -/
theorem V_v2 (c : Dev nD) : (V (F := Ideal) m c main_v2 : S2x16x2048x64.Idx → EReal) = m ((c : Thread nD τ).loc main_arg2) := by
  -- what the host operations leave there: the change of format applied to the argument as launched
  have e : (V (F := Ideal) m c main_v2 : S2x16x2048x64.Idx → EReal)
      = (truncf .bf16 (m ((c : Thread nD τ).loc main_arg2) : FVec Ideal S2x16x2048x64 .f32) bitsLt_bf16_f32 : FVec Ideal S2x16x2048x64 .bf16) := by
    dsimp only [V]
    simp only [hostOps0, hostOps0_1, hostOps0_2, hostOps0_3, hostOps0_4, List.flatten_cons, List.flatten_nil, List.append_nil,
    List.cons_append, List.nil_append]
    after_results
  -- entry by entry the change of format returns its operand
  rw [e]
  rfl

/-- For every float family: the bias array the windows read is the change of format to bf16 of the reference's
    bias, taken of the table as launched. The host operations' term is laid out, the reference's stages are
    replaced by their definitions, and the two sides are then one term: the same operations, the same literals,
    the same shapes; the shape facts on the two sides are proofs of the same propositions. -/
theorem V_v38_generic {F : FTy → Type} [FloatOps F] (mF : (ℓ : Loc nD τ sig) → Buf (Elt F) ℓ) (c : Dev nD) :
    (V (F := F) mF c main_v38 : FVec F S16x2048x2048 .bf16)
      = truncf .bf16 (Cert.ReferenceIdeal.ReadP.val_main_v37 (F := F) (mF ((c : Thread nD τ).loc main_arg3)) : FVec F S16x2048x2048 .f32) (by decide) := by
  -- the term the 55 operations leave at the bias array
  dsimp only [V]
  simp only [hostOps0, hostOps0_1, hostOps0_2, hostOps0_3, hostOps0_4, List.flatten_cons, List.flatten_nil, List.append_nil,
    List.cons_append, List.nil_append]
  after_results_simp
  -- the two inlined functions pass their operands through casts along equal types: the identity
  simp only [StableHlo.TRef.ofBuf, StableHlo.TRef.toBuf, cast_eq]
  -- the reference's stages, one definition per operation, from the transposition back to the two iotas
  simp only [Cert.ReferenceIdeal.ReadP.val_main_v37, Cert.ReferenceIdeal.ReadP.val_main_v36,
    Cert.ReferenceIdeal.ReadP.val_main_v35, Cert.ReferenceIdeal.ReadP.val_main_v34,
    Cert.ReferenceIdeal.ReadP.val_main_v33, Cert.ReferenceIdeal.ReadP.val_main_v32,
    Cert.ReferenceIdeal.ReadP.val_main_c_9, Cert.ReferenceIdeal.ReadP.val_main_v31,
    Cert.ReferenceIdeal.ReadP.val_main_v30, Cert.ReferenceIdeal.ReadP.val_main_c_8,
    Cert.ReferenceIdeal.ReadP.val_main_v29, Cert.ReferenceIdeal.ReadP.val_main_call1_v4,
    Cert.ReferenceIdeal.ReadP.val_main_call1_v3, Cert.ReferenceIdeal.ReadP.val_main_c_7,
    Cert.ReferenceIdeal.ReadP.val_main_call1_v2, Cert.ReferenceIdeal.ReadP.val_main_call1_v1,
    Cert.ReferenceIdeal.ReadP.val_main_call1_v0, Cert.ReferenceIdeal.ReadP.val_main_c_6,
    Cert.ReferenceIdeal.ReadP.val_main_v28, Cert.ReferenceIdeal.ReadP.val_main_v27,
    Cert.ReferenceIdeal.ReadP.val_main_v26, Cert.ReferenceIdeal.ReadP.val_main_c_5,
    Cert.ReferenceIdeal.ReadP.val_main_v25, Cert.ReferenceIdeal.ReadP.val_main_v24,
    Cert.ReferenceIdeal.ReadP.val_main_v23, Cert.ReferenceIdeal.ReadP.val_main_cst_4,
    Cert.ReferenceIdeal.ReadP.val_main_v22, Cert.ReferenceIdeal.ReadP.val_main_v21,
    Cert.ReferenceIdeal.ReadP.val_main_cst_3, Cert.ReferenceIdeal.ReadP.val_main_v20,
    Cert.ReferenceIdeal.ReadP.val_main_v19, Cert.ReferenceIdeal.ReadP.val_main_cst_2,
    Cert.ReferenceIdeal.ReadP.val_main_v18, Cert.ReferenceIdeal.ReadP.val_main_v17,
    Cert.ReferenceIdeal.ReadP.val_main_v16, Cert.ReferenceIdeal.ReadP.val_main_cst_1,
    Cert.ReferenceIdeal.ReadP.val_main_v15, Cert.ReferenceIdeal.ReadP.val_main_v14,
    Cert.ReferenceIdeal.ReadP.val_main_v13, Cert.ReferenceIdeal.ReadP.val_main_c_0,
    Cert.ReferenceIdeal.ReadP.val_main_v12, Cert.ReferenceIdeal.ReadP.val_main_v11,
    Cert.ReferenceIdeal.ReadP.val_main_c, Cert.ReferenceIdeal.ReadP.val_main_v10,
    Cert.ReferenceIdeal.ReadP.val_main_v9, Cert.ReferenceIdeal.ReadP.val_main_v8,
    Cert.ReferenceIdeal.ReadP.val_main_v7, Cert.ReferenceIdeal.ReadP.val_main_v6,
    Cert.ReferenceIdeal.ReadP.val_main_v5, Cert.ReferenceIdeal.ReadP.val_main_v4,
    Cert.ReferenceIdeal.ReadP.val_main_v3]
  rfl

/-- At the ideal instance the bias array the windows read is the reference's bias of the table as launched:
    the equality above, and the change of format is the identity. -/
theorem V_v38 (c : Dev nD) : (V (F := Ideal) m c main_v38 : S16x2048x2048.Idx → EReal) = Cert.ReferenceIdeal.ReadP.val_main_v37 (F := Ideal) (m ((c : Thread nD τ).loc main_arg3)) := by
  rw [V_v38_generic (F := Ideal) m c]
  -- the reference's bias as one array y: the change of format of y is y, whatever y is
  generalize Cert.ReferenceIdeal.ReadP.val_main_v37 (F := Ideal) (m ((c : Thread nD τ).loc main_arg3)) = y
  rfl

end Cert.KernelIdeal.KHost

end
-- ==== Proof.KLogits.lean ====
/-
  The kernel body's first stage read at an index, at the ideal values. At query row r and key t the masked logit is
  the sum over e of x0[0,0,r,e] * x1[0,0,t,e], times the word of 0.125, plus the bias x3[0,r,t], where the key
  position t as a 32-bit word is below the length word (signed), and the stand-in for minus infinity elsewhere.
  The value block's cast drops its two leading unit axes; the output's cast puts them back.
-/
import proofs.«419745_j47141561041102_2_alg».proof.Proof.KBody

noncomputable section

namespace Cert.KernelIdeal.KLogits

open Idealize.ShloMosaic Idealize.ShloMosaic.ValueIdx Cert.KernelIdeal Cert.KernelIdeal.Gen

/-! ## Two leading unit axes dropped or added by a shape cast -/

/-- A [1, 1, a, b] array cast to [a, b] reads, at (i, j), the operand at (0, 0, i, j): the two indices have the same
    row-major position. -/
private theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.mul_one])

/-- An [a, b] array cast to [1, 1, a, b] reads, at (u, u', i, j), the operand at (i, j), whatever the unit
    coordinates. -/
private theorem shapeCast_ab_11ab_apply {α : Type} {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add, Nat.mul_one])

/-! ## The product's operand indices, axis by axis

The left operand [512, 64] contracts its axis 1 and keeps axis 0 as the result's axis 0; the right operand
[64, 2048] contracts its axis 0 and keeps axis 1 as the result's axis 1. -/

private theorem lhs_dot_0 (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl

private theorem lhs_dot_1 (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q

private theorem rhs_dot_0 (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q

private theorem rhs_dot_1 (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- The product of the query block with the transposed key block, into the zero splat, at (r, t): the dot product
    of query row r with key row t. -/
private theorem qk_at (x0 : Vec Ideal S1x1x512x64 .bf16) (x1 : Vec Ideal S1x1x2048x64 .bf16) (r : Fin 512) (t : Fin 2048) :
    matmul (F := Ideal) (φ₁ := .bf16) (φ₂ := .bf16) dot_S512x64_S64x2048_S512x2048_1_0_0_1_n_n none
        (shapeCast S512x64 x0 shapeCasts_S1x1x512x64_S512x64 : FVec Ideal S512x64 .bf16)
        (transpose S64x2048 [1, 0] (shapeCast S2048x64 x1 shapeCasts_S1x1x2048x64_S2048x64 : FVec Ideal S2048x64 .bf16) transposes_S2048x64_p1_0_S64x2048 : FVec Ideal S64x2048 .bf16)
        (constant S512x2048 .f32 0x00000000#32) (ix2 r t)
      = ∑ e : Fin 64, x0 (ix4 (0 : Fin 1) (0 : Fin 1) r e) * x1 (ix4 (0 : Fin 1) (0 : Fin 1) t e) := by
  refine (Ideal.matmul_constant_zero_apply dot_S512x64_S64x2048_S512x2048_1_0_0_1_n_n none _ _ (ix2 r t)).trans ?_
  refine (Equiv.sum_comp (contrEquiv1 dot_S512x64_S64x2048_S512x2048_1_0_0_1_n_n 64 rfl rfl).symm _).symm.trans ?_
  refine Finset.sum_congr rfl fun e _ => ?_
  have hk := contrEquiv1_symm_val dot_S512x64_S64x2048_S512x2048_1_0_0_1_n_n 64 rfl rfl e
  have el : dot_S512x64_S64x2048_S512x2048_1_0_0_1_n_n.lhsIdx (ix2 r t) ((contrEquiv1 dot_S512x64_S64x2048_S512x2048_1_0_0_1_n_n 64 rfl rfl).symm e) = ix2 r e := funext fun a => Fin.ext (by
    match a with
    | ⟨0, _⟩ => exact lhs_dot_0 _ _
    | ⟨1, _⟩ => exact (lhs_dot_1 _ _).trans hk)
  have er : dot_S512x64_S64x2048_S512x2048_1_0_0_1_n_n.rhsIdx (ix2 r t) ((contrEquiv1 dot_S512x64_S64x2048_S512x2048_1_0_0_1_n_n 64 rfl rfl).symm e) = ix2 e t := funext fun a => Fin.ext (by
    match a with
    | ⟨0, _⟩ => exact (rhs_dot_0 _ _).trans hk
    | ⟨1, _⟩ => exact rhs_dot_1 _ _)
  rw [el, er]
  exact congrArg₂ (· * ·) (shapeCast_11ab_ab_apply x0 _ r e)
    ((transpose_ix2_apply _ _ e t).trans (shapeCast_11ab_ab_apply x1 _ t e))

/-! ## The three reads -/

theorem logitsV_at (x0 : Vec Ideal S1x1x512x64 .bf16) (x1 : Vec Ideal S1x1x2048x64 .bf16) (x3 : Vec Ideal S1x512x2048 .bf16) (w : BitVec 32) (r : Fin 512) (t : Fin 2048) :
    Cert.KernelIdeal.KBody.logitsV (F := Ideal) x0 x1 x3 w (ix2 r t)
      = Cert.Attn.masked w t ((∑ e : Fin 64, x0 (ix4 (0 : Fin 1) (0 : Fin 1) r e) * x1 (ix4 (0 : Fin 1) (0 : Fin 1) t e)) * Ideal.ofBits .f32 0x3E000000#32 + x3 (ix3 (0 : Fin 1) r t)) := by
  -- the lane coordinate of (r, t) as a word
  have hio : iota .tc S512x2048 32 [1] iota_S512x2048_d1_w32 (ix2 r t) = BitVec.ofNat 32 t.val :=
    iota_single_apply .tc S512x2048 32 1 iota_S512x2048_d1_w32 (ix2 r t)
  -- the bias block without its unit axis
  have hb : shapeCast S512x2048 x3 shapeCasts_S1x512x2048_S512x2048 (ix2 r t) = x3 (ix3 (0 : Fin 1) r t) :=
    shapeCast_1ab_ab_apply x3 _ r t
  -- the elementwise stages at (r, t), by definition
  show Scalar.select (IntOp.cmpi .slt (iota .tc S512x2048 32 [1] iota_S512x2048_d1_w32 (ix2 r t)) w)
      (matmul (F := Ideal) (φ₁ := .bf16) (φ₂ := .bf16) dot_S512x64_S64x2048_S512x2048_1_0_0_1_n_n none
          (shapeCast S512x64 x0 shapeCasts_S1x1x512x64_S512x64 : FVec Ideal S512x64 .bf16)
          (transpose S64x2048 [1, 0] (shapeCast S2048x64 x1 shapeCasts_S1x1x2048x64_S2048x64 : FVec Ideal S2048x64 .bf16) transposes_S2048x64_p1_0_S64x2048 : FVec Ideal S64x2048 .bf16)
          (constant S512x2048 .f32 0x00000000#32) (ix2 r t) * Ideal.ofBits .f32 0x3E000000#32
        + shapeCast S512x2048 x3 shapeCasts_S1x512x2048_S512x2048 (ix2 r t))
      (Ideal.ofBits .f32 0xCE6E6B28#32) = _
  rw [hio, qk_at x0 x1 r t, hb]
  rfl

theorem vcast_at (x2 : Vec Ideal S1x1x2048x64 .bf16) (t : Fin 2048) (d : Fin 64) :
    shapeCast S2048x64 x2 shapeCasts_S1x1x2048x64_S2048x64 (ix2 t d) = x2 (ix4 (0 : Fin 1) (0 : Fin 1) t d) :=
  shapeCast_11ab_ab_apply x2 _ t d

theorem pay1_at (v31 : FVec Ideal S512x64 .f32) (r : Fin 512) (d : Fin 64) :
    k0_pay1 (F := Ideal) v31 (ix4 (0 : Fin 1) (0 : Fin 1) r d) = v31 (ix2 r d) :=
  shapeCast_ab_11ab_apply v31 _ (0 : Fin 1) (0 : Fin 1) r d

end Cert.KernelIdeal.KLogits

end
-- ==== Proof.KTail.lean ====
/-
  The second stage of the kernel's body read at one index (r, d), at the ideal values: the sum over the keys t of
  the weight exp (logit t - M) of row r times the value block at (t, d), M the row's maximum taken from minus
  infinity, divided by the sum of the weights.
-/
import proofs.«419745_j47141561041102_2_alg».proof.Proof.KBody
import proofs.«419745_j47141561041102_2_alg».proof.Proof.Spec
import Idealize.ShloMosaic.Lib.Pipeline.Value
import Idealize.ShloMosaic.Lib.ValueIdx
import Idealize.ShloMosaic.PureOps.Reduce
import Idealize.ShloMosaic.PureOps.Ideal.Laws

noncomputable section

namespace Cert.KernelIdeal.KTail

open Idealize.ShloMosaic Idealize.ShloMosaic.ValueIdx Cert.KernelIdeal Cert.KernelIdeal.Gen

/-! ## A column of row statistics: the cast to a column and its broadcasts along a row -/

section Column
variable {α : Type}

/-- A vector of 512 entries viewed as one column reads entry r at (r, 0): the two row-major positions are r. -/
theorem col_cast (x : S512.Idx → α) (h : S512.ShapeCasts S512x1) (r : Fin 512) (z : Fin 1) :
    shapeCast S512x1 x h (ix2 r z) = x (ix1 r) := by
  refine shapeCast_apply x h (ix2 r z) (ix1 r) ?_
  rw [Shape.rowMajor_val_one, Shape.rowMajor_val_two]
  show r.val = r.val * 1 + z.val
  have := z.isLt
  omega

/-- A column broadcast along the 2048 keys reads (r, 0) at (r, t). -/
theorem col_bcast_keys (x : S512x1.Idx → α) (h : S512x1.Broadcasts S512x2048) (r : Fin 512) (t : Fin 2048) :
    broadcastTo S512x2048 x h (ix2 r t) = x (ix2 r (0 : Fin 1)) := by
  refine broadcastTo_apply x h (ix2 r t) (ix2 r (0 : Fin 1)) fun ax => ?_
  match ax with
  | ⟨0, _⟩ =>
    show r.val = if (512 : Nat) = 1 then 0 else r.val
    rw [if_neg (by decide)]
  | ⟨1, _⟩ => rfl

/-- A column broadcast along the 64 output columns reads (r, 0) at (r, d). -/
theorem col_bcast_out (x : S512x1.Idx → α) (h : S512x1.Broadcasts S512x64) (r : Fin 512) (d : Fin 64) :
    broadcastTo S512x64 x h (ix2 r d) = x (ix2 r (0 : Fin 1)) := by
  refine broadcastTo_apply x h (ix2 r d) (ix2 r (0 : Fin 1)) fun ax => ?_
  match ax with
  | ⟨0, _⟩ =>
    show r.val = if (512 : Nat) = 1 then 0 else r.val
    rw [if_neg (by decide)]
  | ⟨1, _⟩ => rfl

end Column

/-! ## The two reductions along the keys -/

/-- Row r with key t inserted on the key axis is (r, t). -/
theorem lift_row (r : Fin 512) (t : Fin 2048) : reduces_S512x2048_S512.lift (ix1 r) t = ix2 r t :=
  funext fun a => Fin.ext (by match a with | ⟨0, _⟩ => rfl | ⟨1, _⟩ => rfl)

/-- The word of minus infinity is the bottom of the extended reals. -/
theorem ofBits_negInf : Ideal.ofBits .f32 0xFF800000#32 = (⊥ : EReal) := by
  simp [Ideal.ofBits, Ideal.ieee]

/-- The sum along the keys at row r. -/
theorem rowSum_at (src : FVec Ideal S512x2048 .f32) (hφ : FKind.Formats .f32)
    (hacc : @Eq (BitVec FTy.f32.bits) 0x00000000#32 0x00000000#32) (r : Fin 512) :
    multiReduction .add [1] S512 src 0x00000000#32 reduces_S512x2048_S512 hφ hacc (ix1 r)
      = ∑ t : Fin 2048, src (ix2 r t) := by
  refine (Ideal.multiReduction_add_single src 0x00000000#32 reduces_S512x2048_S512 hφ hacc (ix1 r)).trans ?_
  exact Finset.sum_congr rfl fun t _ => congrArg src (lift_row r t)

/-- The maximum along the keys at row r, taken from minus infinity. -/
theorem rowMax_at (src : FVec Ideal S512x2048 .f32) (hφ : FKind.Formats .f32)
    (hacc : @Eq (BitVec FTy.f32.bits) 0xFF800000#32 0xFF800000#32) (r : Fin 512) :
    multiReduction .maximumf [1] S512 src 0xFF800000#32 reduces_S512x2048_S512 hφ hacc (ix1 r)
      = Cert.Attn.rowMax (fun t => src (ix2 r t)) := by
  refine (Ideal.multiReduction_maximumf_single src 0xFF800000#32 reduces_S512x2048_S512 hφ hacc (ix1 r)).trans ?_
  have hf : (fun t : Fin 2048 => src (reduces_S512x2048_S512.lift (ix1 r) t)) = fun t => src (ix2 r t) :=
    funext fun t => congrArg src (lift_row r t)
  show (Finset.univ : Finset (Fin 2048)).fold max (Ideal.ofBits .f32 0xFF800000#32)
      (fun t : Fin 2048 => src (reduces_S512x2048_S512.lift (ix1 r) t)) = _
  rw [hf, ofBits_negInf]
  rfl

/-! ## The product of the weights with the value block -/

/-- The left operand's index at output index i and contraction index q: its row is the output's row ... -/
theorem lhs_pv_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
/-- ... and its column is the contraction coordinate. -/
theorem lhs_pv_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
/-- The right operand's index: its row is the contraction coordinate ... -/
theorem rhs_pv_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
/-- ... and its column is the output's column. -/
theorem rhs_pv_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Into the zero splat, the product at (r, d) is the sum over the keys t of the left operand at (r, t) times the
    right operand at (t, d). -/
theorem pv_at (p : FVec Ideal S512x2048 .bf16) (v : FVec Ideal S2048x64 .bf16) (r : Fin 512) (d : Fin 64) :
    matmul dot_S512x2048_S2048x64_S512x64_1_0_0_1_n_n none p v (constant (F := Ideal) S512x64 .f32 0x00000000#32) (ix2 r d)
      = ∑ t : Fin 2048, p (ix2 r t) * v (ix2 t d) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 r d) ((ValueIdx.contrEquiv1 dot_S512x2048_S2048x64_S512x64_1_0_0_1_n_n 2048 rfl rfl).symm k) = ix2 r k := funext fun a => Fin.ext (by
    match a with
    | ⟨0, _⟩ => exact lhs_pv_0 _ _
    | ⟨1, _⟩ => exact (lhs_pv_1 _ _).trans hk)
  have er : dot_S512x2048_S2048x64_S512x64_1_0_0_1_n_n.rhsIdx (ix2 r d) ((ValueIdx.contrEquiv1 dot_S512x2048_S2048x64_S512x64_1_0_0_1_n_n 2048 rfl rfl).symm k) = ix2 k d := funext fun a => Fin.ext (by
    match a with
    | ⟨0, _⟩ => exact (rhs_pv_0 _ _).trans hk
    | ⟨1, _⟩ => exact rhs_pv_1 _ _)
  rw [el, er]

/-! ## The stage -/

/-- The exponential of a vector at an index is the exponential of the element. -/
theorem exp_at {s : Shape} {φ : FTy} (x : FVec Ideal s φ) (i : s.Idx) : exp x i = Ideal.exp (x i) := rfl

/-- The stage at (r, d) is the quotient-last row of the specification over row r of the logits and column d of
    the value block. -/
theorem softmaxV_at (v20 : FVec Ideal S512x2048 .f32) (v5 : FVec Ideal S2048x64 .bf16) (r : Fin 512) (d : Fin 64) :
    Cert.KernelIdeal.KBody.softmaxV (F := Ideal) v20 v5 (ix2 r d) = Cert.Attn.rowK (fun t => v20 (ix2 r t)) (fun t => v5 (ix2 t d)) := by
  unfold Cert.KernelIdeal.KBody.softmaxV
  simp only [divf_apply, pv_at, col_bcast_out, col_bcast_keys, col_cast, truncf_apply, exp_at, subf_apply]
  rw [rowSum_at _ _ _ r]
  simp only [col_bcast_keys, col_cast, exp_at, subf_apply]
  rw [rowMax_at v20 _ _ r]
  rfl

end Cert.KernelIdeal.KTail

end
-- ==== Proof.KValue.lean ====
/-
  From the blocks to the array. Grid point (h, qi, b) stages query rows 512 * qi ... 512 * qi + 511 of (b, h), all
  2048 key and value rows of (b, h), and rows 512 * qi ... of head h's bias; the length word it reads is batch b's.
  So what it writes back, row r and column d of its block, is the attention output element
  (b, h, 512 * qi + r, d) of the whole argument arrays: block (b, h, qi) of one whole-array function. The 128
  blocks tile the result array (the point of index (b, h, s / 512) holds row s), so the array ends holding that
  function.
-/
import proofs.«419745_j47141561041102_2_alg».proof.Proof.Gen.KernelIdeal.Frame
import proofs.«419745_j47141561041102_2_alg».proof.Proof.RefRead
import proofs.«419745_j47141561041102_2_alg».proof.Proof.KPiece
import proofs.«419745_j47141561041102_2_alg».proof.Proof.KBody
import proofs.«419745_j47141561041102_2_alg».proof.Proof.KHost
import proofs.«419745_j47141561041102_2_alg».proof.Proof.KLogits
import proofs.«419745_j47141561041102_2_alg».proof.Proof.KTail
import Idealize.ShloMosaic.Lib.Pipeline.Value
import Idealize.ShloMosaic.Lib.ValueIdx

set_option maxRecDepth 16384

noncomputable section

namespace Cert.KernelIdeal.KValue

open Idealize.ShloMosaic Idealize.ShloMosaic.ValueIdx Idealize.ShloMosaic.TcCoe Idealize.SL.Sem
open Idealize.ShloMosaic.Pipeline (Dat)
open Cert.KernelIdeal Cert.KernelIdeal.Gen
open Cert.KernelIdeal.KHost Cert.KernelIdeal.KLogits Cert.KernelIdeal.KTail

variable (m : (ℓ : Loc nD τ sig) → Buf (Elt Ideal) ℓ) (ρ : Dev nD → PrngReg)

/-- No index map reads the table: the pipeline's side condition holds of any contents. -/
theorem ok : Ok (F := Ideal) m := by show ok0 _; unfold ok0; trivial

theorem tr0 : ∀ i : grid0.Coords, cc0_transform_0 i = ![(i 2).val, (i 0).val, (i 1).val, 0] := by decide +kernel
theorem tr1 : ∀ i : grid0.Coords, cc0_transform_1 i = ![(i 2).val, (i 0).val, 0, 0] := by decide +kernel
theorem tr2 : ∀ i : grid0.Coords, cc0_transform_2 i = ![(i 2).val, (i 0).val, 0, 0] := by decide +kernel
theorem tr3 : ∀ i : grid0.Coords, cc0_transform_3 i = ![(i 0).val, (i 1).val, 0] := by decide +kernel
theorem tr4 : ∀ i : grid0.Coords, cc0_transform_4 i = ![(i 2).val, (i 0).val, (i 1).val, 0] := by decide +kernel

/-- The body's value at an index, over any arrays the four blocks are pieces of. -/
theorem point_core (q k v : Cert.Attn.SQ.Idx → EReal) (bias : Cert.Attn.SB.Idx → EReal) (len : Cert.Attn.SL.Idx → BitVec 32)
    (x0 : Vec Ideal S1x1x512x64 .bf16) (x1 x2 : Vec Ideal S1x1x2048x64 .bf16) (x3 : Vec Ideal S1x512x2048 .bf16)
    (b : Fin 2) (h : Fin 16) (s : Fin 512 → Fin 2048)
    (h0 : ∀ r e, x0 (ix4 (0 : Fin 1) (0 : Fin 1) r e) = q (ix4 b h (s r) e))
    (h1 : ∀ t e, x1 (ix4 (0 : Fin 1) (0 : Fin 1) t e) = k (ix4 b h t e))
    (h2 : ∀ t d, x2 (ix4 (0 : Fin 1) (0 : Fin 1) t d) = v (ix4 b h t d))
    (h3 : ∀ r t, x3 (ix3 (0 : Fin 1) r t) = bias (ix3 h (s r) t))
    (r : Fin 512) (d : Fin 64) :
    k0_pay1 (F := Ideal) (k0_pay2 x0 x1 x2 x3 (len (ix1 b))) (ix4 (0 : Fin 1) (0 : Fin 1) r d)
      = Cert.Attn.outAt q k v bias len b h (s r) d := by
  rw [pay1_at, KBody.pay2_eq, softmaxV_at]
  unfold Cert.Attn.outAt
  congr 1
  · funext t
    rw [logitsV_at]
    unfold Cert.Attn.logitK Cert.Attn.qk
    simp only [h0, h1, h3]
  · funext t
    rw [vcast_at, h2]

/-- The head, the query tile and the batch of a grid point. -/
abbrev gh (i : grid0.Coords) : Fin 16 := ⟨(i 0).val, (i 0).isLt⟩
abbrev gq (i : grid0.Coords) : Fin 4 := ⟨(i 1).val, (i 1).isLt⟩
abbrev gb (i : grid0.Coords) : Fin 2 := ⟨(i 2).val, (i 2).isLt⟩
/-- Row r of query tile qi is query position 512 * qi + r. -/
def srow (i : grid0.Coords) (r : Fin 512) : Fin 2048 := ⟨(i 1).val * 512 + r.val, by have := (i 1).isLt; have : (i 1).val < 4 := this; have := r.isLt; omega⟩

theorem blk0 (c : Dev nD) (t : Fin (cfgM m (ok m)).N) (r : Fin 512) (e : Fin 64) :
    (iblk m (ok m) c 0 t : Vec Ideal S1x1x512x64 .bf16) (ix4 (0 : Fin 1) (0 : Fin 1) r e)
      = m ((c : Thread nD τ).loc main_arg0) (ix4 (gb (grid0.coords t)) (gh (grid0.coords t)) (srow (grid0.coords t) r) e) := by
  unfold iblk
  show V m c main_v0 ((((cfgM m (ok m)).win 0).blk t).view.emb (ix4 (0 : Fin 1) (0 : Fin 1) r e)) = _
  rw [V_v0]
  refine congrArg _ (funext fun a => Fin.ext ?_)
  match a with
  | ⟨0, _⟩ => show cc0_transform_0 (grid0.coords t) 0 * 1 + 1 * 0 = (grid0.coords t 2).val; rw [tr0]; simp
  | ⟨1, _⟩ => show cc0_transform_0 (grid0.coords t) 1 * 1 + 1 * 0 = (grid0.coords t 0).val; rw [tr0]; simp
  | ⟨2, _⟩ => show cc0_transform_0 (grid0.coords t) 2 * 512 + 1 * r.val = (grid0.coords t 1).val * 512 + r.val; rw [tr0]; simp
  | ⟨3, _⟩ => show cc0_transform_0 (grid0.coords t) 3 * 64 + 1 * e.val = e.val; rw [tr0]; simp

theorem blk1 (c : Dev nD) (t : Fin (cfgM m (ok m)).N) (k : Fin 2048) (e : Fin 64) :
    (iblk m (ok m) c 1 t : Vec Ideal S1x1x2048x64 .bf16) (ix4 (0 : Fin 1) (0 : Fin 1) k e)
      = m ((c : Thread nD τ).loc main_arg1) (ix4 (gb (grid0.coords t)) (gh (grid0.coords t)) k e) := by
  unfold iblk
  show V m c main_v1 ((((cfgM m (ok m)).win 1).blk t).view.emb (ix4 (0 : Fin 1) (0 : Fin 1) k e)) = _
  rw [V_v1]
  refine congrArg _ (funext fun a => Fin.ext ?_)
  match a with
  | ⟨0, _⟩ => show cc0_transform_1 (grid0.coords t) 0 * 1 + 1 * 0 = (grid0.coords t 2).val; rw [tr1]; simp
  | ⟨1, _⟩ => show cc0_transform_1 (grid0.coords t) 1 * 1 + 1 * 0 = (grid0.coords t 0).val; rw [tr1]; simp
  | ⟨2, _⟩ => show cc0_transform_1 (grid0.coords t) 2 * 2048 + 1 * k.val = k.val; rw [tr1]; simp
  | ⟨3, _⟩ => show cc0_transform_1 (grid0.coords t) 3 * 64 + 1 * e.val = e.val; rw [tr1]; simp

theorem blk2 (c : Dev nD) (t : Fin (cfgM m (ok m)).N) (k : Fin 2048) (e : Fin 64) :
    (iblk m (ok m) c 2 t : Vec Ideal S1x1x2048x64 .bf16) (ix4 (0 : Fin 1) (0 : Fin 1) k e)
      = m ((c : Thread nD τ).loc main_arg2) (ix4 (gb (grid0.coords t)) (gh (grid0.coords t)) k e) := by
  unfold iblk
  show V m c main_v2 ((((cfgM m (ok m)).win 2).blk t).view.emb (ix4 (0 : Fin 1) (0 : Fin 1) k e)) = _
  rw [V_v2]
  refine congrArg _ (funext fun a => Fin.ext ?_)
  match a with
  | ⟨0, _⟩ => show cc0_transform_2 (grid0.coords t) 0 * 1 + 1 * 0 = (grid0.coords t 2).val; rw [tr2]; simp
  | ⟨1, _⟩ => show cc0_transform_2 (grid0.coords t) 1 * 1 + 1 * 0 = (grid0.coords t 0).val; rw [tr2]; simp
  | ⟨2, _⟩ => show cc0_transform_2 (grid0.coords t) 2 * 2048 + 1 * k.val = k.val; rw [tr2]; simp
  | ⟨3, _⟩ => show cc0_transform_2 (grid0.coords t) 3 * 64 + 1 * e.val = e.val; rw [tr2]; simp

theorem blk3 (c : Dev nD) (t : Fin (cfgM m (ok m)).N) (r : Fin 512) (k : Fin 2048) :
    (iblk m (ok m) c 3 t : Vec Ideal S1x512x2048 .bf16) (ix3 (0 : Fin 1) r k)
      = Cert.ReferenceIdeal.ReadP.val_main_v37 (F := Ideal) (m ((c : Thread nD τ).loc main_arg3)) (ix3 (gh (grid0.coords t)) (srow (grid0.coords t) r) k) := by
  unfold iblk
  show V m c main_v38 ((((cfgM m (ok m)).win 3).blk t).view.emb (ix3 (0 : Fin 1) r k)) = _
  rw [V_v38]
  refine congrArg _ (funext fun a => Fin.ext ?_)
  match a with
  | ⟨0, _⟩ => show cc0_transform_3 (grid0.coords t) 0 * 1 + 1 * 0 = (grid0.coords t 0).val; rw [tr3]; simp
  | ⟨1, _⟩ => show cc0_transform_3 (grid0.coords t) 1 * 512 + 1 * r.val = (grid0.coords t 1).val * 512 + r.val; rw [tr3]; simp
  | ⟨2, _⟩ => show cc0_transform_3 (grid0.coords t) 2 * 2048 + 1 * k.val = k.val; rw [tr3]; simp

/-- The result array: the attention output of the argument arrays, the bias the gathered table. -/
abbrev G (c : Dev nD) : S2x16x2048x64.Idx → EReal :=
  Cert.Attn.outArr (m ((c : Thread nD τ).loc main_arg0)) (m ((c : Thread nD τ).loc main_arg1)) (m ((c : Thread nD τ).loc main_arg2))
    (Cert.ReferenceIdeal.ReadP.val_main_v37 (F := Ideal) (m ((c : Thread nD τ).loc main_arg3))) (m ((c : Thread nD τ).loc main_arg4))

/-- The table the body reads its length word from is the length argument. -/
theorem tbl_eq : (tbl m 0 : S2.Idx → BitVec 32) = m (((0 : Dev nD) : Thread nD τ).loc main_arg4) := V_main_arg4 m 0

/-- What grid point t writes back is block t of the result array. -/
theorem flushed_eq (c : Dev nD) (t : Fin (cfgM m (ok m)).N) :
    (dats m (ok m) 0 c).flushed 4 t = (((cfgM m (ok m)).win 4).blk t).view.read (Elt Ideal) (G m c) := by
  show ((cfgM m (ok m)).win 4).cut (grid0.coords t) ((dats m (ok m) 0 c).after 4 t) = _
  rw [after0_4]
  unfold outsAt0
  refine funext fun (j : S1x1x512x64.Idx) => ?_
  show (out0_A_4 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (iblk m (ok m) c 0 t) (iblk m (ok m) c 1 t) (iblk m (ok m) c 2 t) (iblk m (ok m) c 3 t) (tbl m 0)) j
      = G m c ((((cfgM m (ok m)).win 4).blk t).view.emb j)
  refine (congrFun (KPiece.out_piece (F := Ideal) c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (iblk m (ok m) c 0 t) (iblk m (ok m) c 1 t) (iblk m (ok m) c 2 t) (iblk m (ok m) c 3 t) (tbl m 0)) j).trans ?_
  obtain ⟨z0, z1, r, d, rfl⟩ : ∃ (z0 z1 : Fin 1) (r : Fin 512) (d : Fin 64), j = ix4 z0 z1 r d := ⟨j 0, j 1, j 2, j 3, eq_ix4 j⟩
  obtain rfl : z0 = 0 := Subsingleton.elim _ _
  obtain rfl : z1 = 0 := Subsingleton.elim _ _
  obtain rfl : c = 0 := Subsingleton.elim _ _
  have hw : (tbl m 0 : S2.Idx → BitVec 32) (ix1 (⟨(grid0.coords t 2).val, (grid0.coords t 2).isLt⟩ : Fin 2))
      = m (((0 : Dev nD) : Thread nD τ).loc main_arg4) (ix1 (gb (grid0.coords t))) := congrFun (tbl_eq m) _
  have he : (((cfgM m (ok m)).win 4).blk t).view.emb (ix4 (0 : Fin 1) (0 : Fin 1) r d)
      = ix4 (gb (grid0.coords t)) (gh (grid0.coords t)) (srow (grid0.coords t) r) d := by
    refine funext fun a => Fin.ext ?_
    match a with
    | ⟨0, _⟩ => show cc0_transform_4 (grid0.coords t) 0 * 1 + 1 * 0 = (grid0.coords t 2).val; rw [tr4]; simp
    | ⟨1, _⟩ => show cc0_transform_4 (grid0.coords t) 1 * 1 + 1 * 0 = (grid0.coords t 0).val; rw [tr4]; simp
    | ⟨2, _⟩ => show cc0_transform_4 (grid0.coords t) 2 * 512 + 1 * r.val = (grid0.coords t 1).val * 512 + r.val; rw [tr4]; simp
    | ⟨3, _⟩ => show cc0_transform_4 (grid0.coords t) 3 * 64 + 1 * d.val = d.val; rw [tr4]; simp
  refine (congrArg (fun w => k0_pay1 (F := Ideal) (k0_pay2 (iblk m (ok m) 0 0 t) (iblk m (ok m) 0 1 t) (iblk m (ok m) 0 2 t) (iblk m (ok m) 0 3 t) w) (ix4 (0 : Fin 1) (0 : Fin 1) r d)) hw).trans ?_
  refine (point_core (m (((0 : Dev nD) : Thread nD τ).loc main_arg0)) (m (((0 : Dev nD) : Thread nD τ).loc main_arg1)) (m (((0 : Dev nD) : Thread nD τ).loc main_arg2))
    (Cert.ReferenceIdeal.ReadP.val_main_v37 (F := Ideal) (m (((0 : Dev nD) : Thread nD τ).loc main_arg3))) (m (((0 : Dev nD) : Thread nD τ).loc main_arg4))
    (iblk m (ok m) 0 0 t) (iblk m (ok m) 0 1 t) (iblk m (ok m) 0 2 t) (iblk m (ok m) 0 3 t)
    (gb (grid0.coords t)) (gh (grid0.coords t)) (srow (grid0.coords t))
    (blk0 m 0 t) (blk1 m 0 t) (blk2 m 0 t) (blk3 m 0 t) r d).trans ?_
  rw [he]
  rfl

/-- Every (batch, head, query tile) is some grid point's block index. -/
theorem idx_onto : ∀ (b : Fin 2) (h : Fin 16) (qi : Fin 4), ∃ t : Fin grid0.N, cc0_transform_4 (grid0.coords t) = ![b.val, h.val, qi.val, 0] := by
  decide +kernel

set_option backward.isDefEq.respectTransparency.types false in
/-- The blocks tile the result array: the point of index (b, h, s / 512) holds row s. -/
theorem cover (i : S2x16x2048x64.Idx) :
    ∃ t : Fin (cfgM m (ok m)).N, ((cfgM m (ok m)).win 4).flush t = true ∧ i ∈ (((cfgM m (ok m)).win 4).blk t).view.set := by
  have h0 : (i 0).val < 2 := (i 0).isLt
  have h1 : (i 1).val < 16 := (i 1).isLt
  have h2 : (i 2).val < 2048 := (i 2).isLt
  have h3 : (i 3).val < 64 := (i 3).isLt
  obtain ⟨t, ht⟩ := idx_onto ⟨(i 0).val, h0⟩ ⟨(i 1).val, h1⟩ ⟨(i 2).val / 512, by omega⟩
  have q0 : cc0_transform_4 (grid0.coords t) 0 = (i 0).val := congrFun ht 0
  have q1 : cc0_transform_4 (grid0.coords t) 1 = (i 1).val := congrFun ht 1
  have q2 : cc0_transform_4 (grid0.coords t) 2 = (i 2).val / 512 := congrFun ht 2
  have q3 : cc0_transform_4 (grid0.coords t) 3 = 0 := congrFun ht 3
  refine ⟨t, flush0_4 (adm m (ok m)) t, ?_⟩
  have e : (((cfgM m (ok m)).win 4).blk t).view.set = (((cfgM m (ok m)).win 4).rect t).set :=
    View.set_slice_whole main_v39 (((cfgM m (ok m)).win 4).rect t)
  refine (Finset.ext_iff.1 e i).2 (Rect.mem_set_unit.2 fun a => ?_)
  match a with
  | ⟨0, _⟩ => show cc0_transform_4 (grid0.coords t) 0 * 1 ≤ (i 0).val ∧ (i 0).val < cc0_transform_4 (grid0.coords t) 0 * 1 + 1; omega
  | ⟨1, _⟩ => show cc0_transform_4 (grid0.coords t) 1 * 1 ≤ (i 1).val ∧ (i 1).val < cc0_transform_4 (grid0.coords t) 1 * 1 + 1; omega
  | ⟨2, _⟩ => show cc0_transform_4 (grid0.coords t) 2 * 512 ≤ (i 2).val ∧ (i 2).val < cc0_transform_4 (grid0.coords t) 2 * 512 + 512; omega
  | ⟨3, _⟩ => show cc0_transform_4 (grid0.coords t) 3 * 64 ≤ (i 3).val ∧ (i 3).val < cc0_transform_4 (grid0.coords t) 3 * 64 + 64; omega

/-- So the result array ends holding the attention output. -/
theorem final (c : Dev nD) : (dats m (ok m) 0 c).arrAt 4 (cfgM m (ok m)).N = G m c :=
  (dats m (ok m) 0 c).arrAt_eq_of_cover 4 (G m c) (fun t _ => flushed_eq m c t) (cover m)

/-- The kernel program's run: it terminates with the result array at the attention output of the arguments, the
    arguments unchanged. -/
theorem run : θ_run defs (onTc (τ := τ) (main (F := Ideal))) ⟨m, fun _ => 0, ρ⟩ fun r => ∀ c : Dev nD,
      r.2.mem ((c : Thread nD τ).loc main_v39) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 4).trans (final m c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩)
    (run_main m ρ (ok m))

end Cert.KernelIdeal.KValue
end
-- ==== Proof.Laws.lean ====
/-
  The laws of the attention row over the extended reals: the two arrangements of the normalisation agree on real
  rows; the scale by 1/8 is the quotient by 8; real inputs give real logits.
-/
import proofs.«419745_j47141561041102_2_alg».proof.Proof.Spec
import Mathlib.Data.EReal.Basic
import Mathlib.Data.EReal.Operations
import Mathlib.Data.Finset.Fold
import Mathlib.Algebra.BigOperators.Group.Finset.Basic
import Mathlib.Algebra.BigOperators.Ring.Finset
import Mathlib.Algebra.Order.BigOperators.Group.Finset
import Mathlib.Analysis.Complex.Exponential

noncomputable section

namespace Cert.Attn

open Idealize.ShloMosaic Idealize.ShloMosaic.ValueIdx

/-! ## Real numbers inside the extended reals -/

/-- The coercion of a finite sum of reals is the sum of the coercions. -/
private theorem coe_sum {ι : Type} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- An extended real that is neither infinity is a real. -/
private theorem isReal_of_ne {x : EReal} (hbot : x ≠ ⊥) (htop : x ≠ ⊤) : IsReal x :=
  ⟨x.toReal, (EReal.coe_toReal htop hbot).symm⟩

/-- The reals are closed under the sum of the extended reals. -/
private theorem isReal_add {x y : EReal} (hx : IsReal x) (hy : IsReal y) : IsReal (x + y) := by
  obtain ⟨a, rfl⟩ := hx
  obtain ⟨b, rfl⟩ := hy
  exact ⟨a + b, (EReal.coe_add a b).symm⟩

/-- And under the product. -/
private theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- And under finite sums. -/
private theorem isReal_sum {ι : Type} (S : Finset ι) {f : ι → EReal} (hf : ∀ i, IsReal (f i)) :
    IsReal (∑ i ∈ S, f i) := by
  choose g hg using hf
  refine ⟨∑ i ∈ S, g i, ?_⟩
  rw [coe_sum]
  exact Finset.sum_congr rfl (fun i _ => hg i)

/-! ## The constants -/

/-- The word 0x41000000 denotes 8. -/
private theorem ofBits_eight : Ideal.ofBits .f32 0x41000000#32 = ((8 : ℝ) : EReal) := by
  simp [Ideal.ofBits, Ideal.ieee, -EReal.coe_mul]; norm_num

/-- The word 0x3E000000 denotes 1/8. -/
private theorem ofBits_eighth : Ideal.ofBits .f32 0x3E000000#32 = ((1 / 8 : ℝ) : EReal) := by
  simp [Ideal.ofBits, Ideal.ieee, -EReal.coe_mul]; norm_num

/-- The stand-in for minus infinity, the word 0xCE6E6B28, denotes -1000000000 (= -(15625000 * 2 ^ 6)). -/
private theorem negBig_eq : negBig = ((-1000000000 : ℝ) : EReal) := by
  unfold negBig
  simp [Ideal.ofBits, Ideal.ieee, -EReal.coe_mul]; norm_num

/-- So it is a real. -/
private theorem negBig_isReal : IsReal negBig := ⟨_, negBig_eq⟩

/-! ## The laws -/

/-- The maximum of a row of reals is a real. -/
theorem rowMax_isReal {s : Fin 2048 → EReal} (hs : ∀ t, IsReal (s t)) : IsReal (rowMax s) := by
  unfold rowMax
  apply isReal_of_ne
  · -- the fold is above its entry at 0, which is a real, hence above minus infinity
    apply ne_of_gt
    rw [Finset.lt_fold_max]
    right
    obtain ⟨r, hr⟩ := hs 0
    exact ⟨0, Finset.mem_univ _, by rw [hr]; exact EReal.bot_lt_coe r⟩
  · -- the starting value and every entry are below plus infinity, hence so is the fold
    apply ne_of_lt
    rw [Finset.fold_max_lt]
    refine ⟨bot_lt_top, fun t _ => ?_⟩
    obtain ⟨r, hr⟩ := hs t
    rw [hr]; exact EReal.coe_lt_top r

/-- On a row of real logits and real values the two arrangements agree. -/
theorem rowK_eq_rowR {s v : Fin 2048 → EReal} (hs : ∀ t, IsReal (s t)) (hv : ∀ t, IsReal (v t)) :
    rowK s v = rowR s v := by
  obtain ⟨M, hM⟩ := rowMax_isReal hs
  choose a ha using hs
  choose u hu using hv
  -- each weight is the real exp (a t - M)
  have hw : ∀ t, wgt s t = ((Real.exp (a t - M) : ℝ) : EReal) := by
    intro t
    unfold wgt
    rw [ha t, hM, ← EReal.coe_sub, Ideal.exp_coe]
  -- the normaliser is the real sum Z of them, and Z is positive
  have hden : den s = ((∑ t : Fin 2048, Real.exp (a t - M) : ℝ) : EReal) := by
    unfold den
    rw [coe_sum]
    exact Finset.sum_congr rfl (fun t _ => hw t)
  have hZ : (0 : ℝ) < ∑ t : Fin 2048, Real.exp (a t - M) :=
    Finset.sum_pos (fun t _ => Real.exp_pos _) ⟨0, Finset.mem_univ _⟩
  -- both sides are coercions of reals: (sum e_t u_t) * (1/Z) and sum (e_t * (1/Z)) * u_t
  unfold rowK rowR
  rw [hden, Ideal.div_coe (ne_of_gt hZ)]
  simp only [hw, hu, Ideal.div_coe (ne_of_gt hZ), ← EReal.coe_mul, ← coe_sum]
  rw [EReal.coe_eq_coe_iff, Finset.sum_mul]
  exact Finset.sum_congr rfl (fun t _ => by ring)

/-- Multiplying by 1/8 and dividing by 8 are one function on the extended reals. -/
theorem logitK_eq_logitR (q k : SQ.Idx → EReal) (bias : SB.Idx → EReal) (len : SL.Idx → BitVec 32)
    (b : Fin 2) (h : Fin 16) (s t : Fin 2048) : logitK q k bias len b h s t = logitR q k bias len b h s t := by
  unfold logitK logitR
  rw [ofBits_eight, ofBits_eighth, Ideal.div_coe (by norm_num : (8 : ℝ) ≠ 0)]

/-- Real inputs give real logits. -/
theorem logitK_isReal {q k : SQ.Idx → EReal} {bias : SB.Idx → EReal} (len : SL.Idx → BitVec 32)
    (hq : ∀ i, IsReal (q i)) (hk : ∀ i, IsReal (k i)) (hb : ∀ i, IsReal (bias i))
    (b : Fin 2) (h : Fin 16) (s t : Fin 2048) : IsReal (logitK q k bias len b h s t) := by
  unfold logitK masked Scalar.select
  split
  · -- a kept key: a finite sum of products of reals, times a real, plus a real
    refine isReal_add (isReal_mul ?_ ⟨1 / 8, ofBits_eighth⟩) (hb _)
    unfold qk
    exact isReal_sum _ (fun e => isReal_mul (hq _) (hk _))
  · -- a masked key: the stand-in, a real
    exact negBig_isReal

/-- With real inputs, the element in the normalise-first arrangement over the quotient-spelt logits is the same
    number. -/
theorem outAt_eq_rowR {q k v : SQ.Idx → EReal} {bias : SB.Idx → EReal} (len : SL.Idx → BitVec 32)
    (hq : ∀ i, IsReal (q i)) (hk : ∀ i, IsReal (k i)) (hv : ∀ i, IsReal (v i)) (hb : ∀ i, IsReal (bias i))
    (b : Fin 2) (h : Fin 16) (s : Fin 2048) (d : Fin 64) :
    outAt q k v bias len b h s d = rowR (logitR q k bias len b h s) (fun t => v (ix4 b h t d)) := by
  unfold outAt
  rw [rowK_eq_rowR (fun t => logitK_isReal len hq hk hb b h s t) (fun t => hv _)]
  congr 1
  funext t
  exact logitK_eq_logitR q k bias len b h s t

end Cert.Attn

end
-- ==== Proof.Finite.lean ====
/-
  From the finiteness precondition to real entries.

  The precondition is a one-bit word: for each of the four float arrays x it asks, entry by entry, whether
  |x i| < +infinity, takes the conjunction of those bits over every axis, and joins the four results by
  conjunction. Over the extended reals |x| is max x (-x), which is +infinity exactly at the two infinities,
  so the comparison answers 1 only at a real number. Read backwards: if the whole word is 1, each of the four
  conjunctions is 1, hence each entry's comparison is 1, hence each entry is a real number.
-/
import proofs.«419745_j47141561041102_2_alg».proof.Proof.Spec
import proofs.«419745_j47141561041102_2_alg».proof.Pre_finite_inputs
import Idealize.ShloMosaic.Lib.ReduceAll
import Idealize.ShloMosaic.Lib.ValueIdx
import Idealize.ShloMosaic.PureOps.Ideal.Laws

noncomputable section

namespace Cert.Attn.Finite

open Idealize.ShloMosaic

/-- The 32-bit word with sign 0, exponent all ones and fraction zero denotes plus infinity. -/
theorem inf_word : Ideal.ofBits .f32 0x7F800000#32 = (⊤ : EReal) := by
  simp [Ideal.ofBits, Ideal.ieee]

/-- An extended real whose absolute value max x (-x) lies strictly below plus infinity is a real number:
    at minus infinity the maximum is -(-infinity) = +infinity, at plus infinity it is +infinity itself, and
    neither is below +infinity. -/
theorem isReal_of_abs_lt_top (x : EReal) (h : max x (-x) < (⊤ : EReal)) : Cert.Attn.IsReal x := by
  induction x using EReal.rec with
  | bot => simp at h
  | coe r => exact ⟨r, rfl⟩
  | top => simp at h

/-- One entry: if the comparison |x| < +infinity answers 1, then x is a real number. The comparison is the
    order of the extended reals, so the answer 1 is the strict inequality max x (-x) < +infinity. -/
theorem isReal_of_cmp (x : Ideal .f32)
    (h : FloatOps.cmpf .olt (FloatOps.hostAbsf x) (FloatOps.ofBits .f32 0x7F800000#32 : Ideal .f32) = 1#1) :
    Cert.Attn.IsReal x := by
  rw [Ideal.hostAbsf_def, Ideal.cmpf_def, Ideal.absf_def] at h
  have hc : (FloatOps.ofBits .f32 0x7F800000#32 : Ideal .f32) = (⊤ : EReal) := inf_word
  rw [hc] at h
  refine isReal_of_abs_lt_top x ?_
  by_contra hn
  simp [Ideal.cmp, hn] at h

/-- The shape of rank zero has exactly one index: an index is a function out of the empty type. -/
instance : Subsingleton Cert.Pre_finite_inputs.S_.Idx := ⟨fun a b => funext fun d => d.elim0⟩

open Idealize.ShloMosaic Cert.Pre_finite_inputs in
/-- If the finiteness word of the five arguments is 1, every entry of the four float arguments is a real
    number. The word is ((r0 and r1) and r2) and r3 with rk the conjunction over all entries of argument k
    of the bit |entry| < +infinity; a conjunction of bits is 1 only when both are, and a conjunction over all
    entries is 1 only when every entry's bit is. The integer argument plays no part. -/
theorem real_of_pre [Cert.Pre_finite_inputs.Facts] (a0 a1 a2 : FVec Ideal S2x16x2048x64 .f32) (a3 : FVec Ideal S32x16 .f32) (a4 : IVec S2 32)
    (h : Cert.Pre_finite_inputs.fn (F := Ideal) a0 a1 a2 a3 a4 = (fun _ => 1#1)) :
    (∀ i, Cert.Attn.IsReal (a0 i)) ∧ (∀ i, Cert.Attn.IsReal (a1 i)) ∧ (∀ i, Cert.Attn.IsReal (a2 i)) ∧ (∀ i, Cert.Attn.IsReal (a3 i)) := by
  -- the word at its one index, with the definition of the predicate laid open
  have h0 := congrFun h ValueIdx.ix0
  dsimp only [Cert.Pre_finite_inputs.fn, Cert.Pre_finite_inputs.fn_part1] at h0
  -- a conjunction of two bits is 1 only when both are: three times
  obtain ⟨h012, hr3⟩ := IntOp.andi_eq_one.1 h0
  obtain ⟨h01, hr2⟩ := IntOp.andi_eq_one.1 h012
  obtain ⟨hr0, hr1⟩ := IntOp.andi_eq_one.1 h01
  -- a conjunction over all entries is 1 only when every entry's bit is; that bit is the comparison above
  refine ⟨fun i => ?_, fun i => ?_, fun i => ?_, fun i => ?_⟩
  · have e := Host.reduce_andi_all _ _ _ _ _ hr0 i
    exact isReal_of_cmp (a0 i) e
  · have e := Host.reduce_andi_all _ _ _ _ _ hr1 i
    exact isReal_of_cmp (a1 i) e
  · have e := Host.reduce_andi_all _ _ _ _ _ hr2 i
    exact isReal_of_cmp (a2 i) e
  · have e := Host.reduce_andi_all _ _ _ _ _ hr3 i
    exact isReal_of_cmp (a3 i) e

end Cert.Attn.Finite

end
-- ==== Proof.BiasReal.lean ====
/-
  The bias the reference reads is real when the table is.

  The reference builds its bias array (head, query position, key position) from the table in two steps: a gather,
  whose entry at an index is the table's entry at an index computed from a bucket array, and a transposition,
  whose entry at (h, s, t) is the gathered array's entry at (s, t, h). Neither step computes with the values: each
  entry of the result is some entry of the table. So if every entry of the table is a real number, so is every
  entry of the bias.
-/
import proofs.«419745_j47141561041102_2_alg».proof.Proof.Spec
import proofs.«419745_j47141561041102_2_alg».proof.Proof.RefRead

noncomputable section

namespace Cert.ReferenceIdeal.BiasReal

open Idealize.ShloMosaic Cert.ReferenceIdeal in
/-- Every entry of the gathered and transposed bias is an entry of the table: the transposition reads the
    gathered array at a permuted index, and the gather reads the table at an index of its own making. -/
theorem bias_isReal (x3 : (⟨S32x16, .f32⟩ : BufTy).Contents (Elt Ideal)) (hx : ∀ i, Cert.Attn.IsReal (x3 i)) (i : S16x2048x2048.Idx) :
    Cert.Attn.IsReal (Cert.ReferenceIdeal.ReadP.val_main_v37 (F := Ideal) x3 i) := by
  rw [Cert.ReferenceIdeal.ReadP.val_main_v37_apply]
  unfold Cert.ReferenceIdeal.ReadP.val_main_v36 Host.gather
  exact hx _

end Cert.ReferenceIdeal.BiasReal

end
-- ==== Proof.lean ====
/-
  The certificate of a single-pass attention kernel against its reference: scaled dot-product attention over
  2 batches, 16 heads, 2048 positions and head dimension 64, with an additive relative-position bias gathered from
  a 32 x 16 table and a key-length mask.

  The kernel computes, for each tile of 512 query rows, the masked logits against all 2048 keys, the row maxima,
  the exponentials of the differences and their row sums, multiplies the exponentials into the value block and
  divides by the row sums at the end. The reference normalises the exponentials first and multiplies the
  normalised weights into the values. Over the extended reals the two agree when every logit and value is a real
  number, which the precondition gives: the float inputs are finite, the bias entries are entries of the table,
  the masked positions hold a finite stand-in; so every exponential is a positive real, every row sum a positive
  real, and the quotient by it distributes over the finite sum. The kernel scales by the word of 0.125 where the
  reference divides by the word of 8: one function on every extended real. The bias is the same chain of host
  operations on the table in both programs and is carried as one function of the table, never opened beyond the
  fact that each of its entries is an entry of the table. The length words are integers the precondition leaves
  free: both programs compare the key position with the word in the same way, so nothing is asked of them.

  The kernel's frame is the generated one, under the side condition of the prefetched table, which is trivial
  here (no index map reads the table). The reference's frame is its run with the result dropped.
-/
import proofs.«419745_j47141561041102_2_alg».proof.Defs
import proofs.«419745_j47141561041102_2_alg».proof.Proof.Gen.Kernel
import proofs.«419745_j47141561041102_2_alg».proof.Proof.Gen.Kernel.Frame
import proofs.«419745_j47141561041102_2_alg».proof.Proof.Gen.KernelIdeal
import proofs.«419745_j47141561041102_2_alg».proof.Proof.Gen.KernelIdeal.Frame
import proofs.«419745_j47141561041102_2_alg».proof.Proof.Gen.ReferenceIdeal
import proofs.«419745_j47141561041102_2_alg».proof.Proof.Gen.Pre_finite_inputs
import proofs.«419745_j47141561041102_2_alg».proof.Proof.RefRun
import proofs.«419745_j47141561041102_2_alg».proof.Proof.RefRead
import proofs.«419745_j47141561041102_2_alg».proof.Proof.RefValue
import proofs.«419745_j47141561041102_2_alg».proof.Proof.KValue
import proofs.«419745_j47141561041102_2_alg».proof.Proof.Laws
import proofs.«419745_j47141561041102_2_alg».proof.Proof.Finite
import proofs.«419745_j47141561041102_2_alg».proof.Proof.BiasReal
import Idealize.ShloMosaic.Adequacy
import Idealize.ShloMosaic.Init

noncomputable section

namespace Cert.Proof

open Idealize.ShloMosaic Idealize.ShloMosaic.TcCoe Idealize.ShloMosaic.ValueIdx Idealize.SL.Sem

/-- No index map of the word-level kernel reads the table: its side condition holds of any contents. -/
theorem ok_bits (m : (ℓ : Loc Cert.Kernel.nD Cert.Kernel.τ Cert.Kernel.sig) → Buf (Elt Bits) ℓ) : Cert.Kernel.Gen.Ok (F := Bits) m := by
  show Cert.Kernel.ok0 _; unfold Cert.Kernel.ok0; trivial

theorem frame_p : Cert.frame_Kernel (hKernel := Cert.Kernel.Gen.facts) (hPre_finite_inputs := Cert.Pre_finite_inputs.Gen.facts) :=
  fun m ρ _ => Cert.Kernel.Gen.frame m ρ (ok_bits m)

theorem frame_pi : Cert.frame_KernelIdeal (hKernelIdeal := Cert.KernelIdeal.Gen.facts) (hPre_finite_inputs := Cert.Pre_finite_inputs.Gen.facts) :=
  fun m ρ _ => Cert.KernelIdeal.Gen.frame m ρ (Cert.KernelIdeal.KValue.ok m)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both programs end with the attention output of the arguments: the kernel's blocks tile it, the reference's
    result is it index by index, the two arrangements of the normalisation agreeing on the real rows the
    precondition gives. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨hq, hk, hv, ht⟩ := Cert.Attn.Finite.real_of_pre _ _ _ _ _ (hpre c)
  rw [Cert.ReferenceIdeal.ReadP.val_main_v59_eq, (hagree c).1, (hagree c).2.1, (hagree c).2.2.1, (hagree c).2.2.2.1, (hagree c).2.2.2.2]
  funext i
  obtain ⟨b, h, s, d, rfl⟩ : ∃ (b : Fin 2) (h : Fin 16) (s : Fin 2048) (d : Fin 64), i = ix4 b h s d := ⟨i 0, i 1, i 2, i 3, eq_ix4 i⟩
  rw [Cert.ReferenceIdeal.RefValue.ref_at]
  exact (Cert.Attn.outAt_eq_rowR _ hq hk hv (Cert.ReferenceIdeal.BiasReal.bias_isReal _ ht) b h s d).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
